-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S2x4x1x64x64 : Shape := ⟨5, ![2, 4, 1, 64, 64]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S2x4x1x64x64 : S_.BroadcastsInDim S2x4x1x64x64 (![] : Fin 0 → Fin S2x4x1x64x64.rank)
  reducesTo_S2x4x1x64x64_S_d0_1_2_3_4 : S2x4x1x64x64.ReducesTo [0, 1, 2, 3, 4] S_

variable [Facts]

def fn {F : FTy → Type} [FloatOps F] (main_arg0 : FVec F S8x4096x3 .f32) (main_arg1 : FVec F S8x4096x3 .f32) (main_arg2 : FVec F S2x4x1x64x64 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S2x4x1x64x64 .f32 := Host.absf main_arg2
  let main_cst_2 : FVec F S_ .f32 := constant S_ .f32 0x7F800000#32
  let main_v10 : FVec F S2x4x1x64x64 .f32 := broadcastInDim S2x4x1x64x64 ![] bcast_S_S2x4x1x64x64 main_cst_2
  let main_v11 : IVec S2x4x1x64x64 1 := cmpf .olt main_v9 main_v10
  let main_c_3 : IVec S_ 1 := constantI S_ 1 1#1
  let main_v12 : IVec S_ 1 := (fun x v => Host.reduce IntOp.andi x v reducesTo_S2x4x1x64x64_S_d0_1_2_3_4 h_S_) main_v11 main_c_3
  let main_v13 : IVec S_ 1 := andi main_v8 main_v12
  main_v13
-- ==== Kernel.lean ====
abbrev S8x4096x3 : Shape := ⟨3, ![8, 4096, 3]⟩
abbrev S2x4x1x64x64 : Shape := ⟨5, ![2, 4, 1, 64, 64]⟩
abbrev S8x4096 : Shape := ⟨2, ![8, 4096]⟩
abbrev S8x256x3 : Shape := ⟨3, ![8, 256, 3]⟩
abbrev S8x256 : Shape := ⟨2, ![8, 256]⟩
abbrev S8x256x256 : Shape := ⟨3, ![8, 256, 256]⟩
abbrev S8x256x1 : Shape := ⟨3, ![8, 256, 1]⟩
abbrev S8x1x256 : Shape := ⟨3, ![8, 1, 256]⟩
abbrev S_ : Shape := ⟨0, ![]⟩

abbrev nBuf : Space → Nat
  | .hbm => 16
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S2x4x1x64x64, .f32⟩
  | .hbm, ⟨3, _⟩ => ⟨S8x4096, .f32⟩
  | .hbm, ⟨4, _⟩ => ⟨S8x4096, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S8x256x3, .f32⟩
  | .local _ .vmem, ⟨1, _⟩ => ⟨S8x256x3, .f32⟩
  | .local _ .vmem, ⟨2, _⟩ => ⟨S8x256x3, .f32⟩
  | .local _ .vmem, ⟨3, _⟩ => ⟨S8x256x3, .f32⟩
  | .local _ .vmem, ⟨4, _⟩ => ⟨S8x256, .f32⟩
  | .local _ .vmem, ⟨5, _⟩ => ⟨S8x256, .f32⟩
  | .local _ .vmem, ⟨6, _⟩ => ⟨S8x4096, .f32⟩
  | .local _ .vmem, ⟨7, _⟩ => ⟨S8x256, .f32⟩
  | .local _ .vmem, ⟨8, _⟩ => ⟨S8x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c256_i32 : BitVec 32 := 256#32
  let v34 : BitVec 32 := Scalar.muli arg1 c256_i32
  v34
def k0_off1 (i : grid0.Coords) : Fin 2 → Nat :=
  let c0_19 : Index := 0#32
  let arg1 : BitVec 32 := BitVec.ofNat 32 (i 1).val
  let c256_i32 : BitVec 32 := 256#32
  let v34 : BitVec 32 := Scalar.muli arg1 c256_i32
  let v35 : BitVec 32 := v34
  let v36 : Index := Scalar.indexCast v35
  ![0, v36.toNat]
def k0_cond3 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_21 : BitVec 32 := 0#32
  let v45 : BitVec 1 := Scalar.cmpi .ne v44 c0_i32_21
  v45

def k0_cond4 (i : grid0.Coords) : BitVec 1 :=
  let arg0 : BitVec 32 := BitVec.ofNat 32 (i 0).val
  let c15_i32_22 : BitVec 32 := 15#32
  let v46 : BitVec 1 := Scalar.cmpi .eq arg0 c15_i32_22
  let arg1 : BitVec 32 := BitVec.ofNat 32 (i 1).val
  let c15_i32_23 : BitVec 32 := 15#32
  let v47 : BitVec 1 := Scalar.cmpi .eq arg1 c15_i32_23
  let v48 : BitVec 1 := Scalar.andi v46 v47
  let v49 : BitVec 32 := Scalar.extui v48
  let c0_i32_24 : BitVec 32 := 0#32
  let v50 : BitVec 1 := Scalar.cmpi .ne v49 c0_i32_24
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x3_S8x256x3_0_0_0 : ∀ a, (![0, 0, 0] : Fin 3 → Nat) a + S8x256x3.size a ≤ S8x256x3.size a
  h_S8x256x3 : 0 < S8x256x3.numel
  reduces_S8x256x3_S8x256 : S8x256x3.Reduces [2] S8x256
  bitsLt_bf16_f32 : FTy.bits .bf16 < FTy.bits .f32
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  reduces_S8x256x256_S8x256 : S8x256x256.Reduces [2] S8x256
  reduces_S8x256x256_S8x256_2 : S8x256x256.Reduces [1] S8x256
  shapeCasts_S2x4x1x64x64_S8x4096 : S2x4x1x64x64.ShapeCasts S8x4096
  reducesTo_S8x4096_S_d0_1 : S8x4096.ReducesTo [0, 1] S_
  h_S_ : 0 < S_.numel
  dot_S8x256x3_S8x256x3_S8x256x256_2_2_1_1_0_0_wf : DotDims.WF S8x256x3 S8x256x3 S8x256x256 [2] [2] [1] [1] [0] [0]
  hrank0 : 0 < grid0.rank
  k0_mult1_dvd : ∀ i : grid0.Coords, 256 ∣ (k0_mult1 i).toNat
  k0_off1_inb : ∀ i : grid0.Coords, ∀ a, (k0_off1 i) a + S8x256.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x3.size a ≤ S8x4096x3.size a
  hwx0_0 : ∀ i : grid0.Coords, EltTy.bits .f32 = 32 ∨ (Rect.block (s := S8x4096x3) S8x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x3.size a ≤ S8x4096x3.size a
  hwx0_1 : ∀ i : grid0.Coords, EltTy.bits .f32 = 32 ∨ (Rect.block (s := S8x4096x3) S8x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x4096.size a
  hwx0_2 : ∀ i : grid0.Coords, EltTy.bits .f32 = 32 ∨ (Rect.block (s := S8x4096) S8x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S8x4096.size a
  hwx0_3 : ∀ i : grid0.Coords, EltTy.bits .f32 = 32 ∨ (Rect.block (s := S8x4096) S8x4096.size (cc0_transform_3 i) (hinb0_3 i)).WholeWords (EltTy.packing .f32)

variable [Facts₀]

def dot_S8x256x3_S8x256x3_S8x256x256_2_2_1_1_0_0 : DotDims S8x256x3 S8x256x3 S8x256x256 where
  lhsContracting := [2]
  rhsContracting := [2]
  lhsNonContracting := [1]
  rhsNonContracting := [1]
  lhsBatch := [0]
  rhsBatch := [0]
  wf := dot_S8x256x3_S8x256x3_S8x256x256_2_2_1_1_0_0_wf

abbrev win0_0 : Pipeline.Window sig grid0 :=
  Pipeline.Window.ofSpec (Memref.whole main_arg1) S8x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S2x4x1x64x64 : Shape := ⟨5, ![2, 4, 1, 64, 64]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S2x4x1x64x64, .f32⟩
  | .hbm, ⟨3, _⟩ => ⟨S8x4096x3, .f32⟩
  | .hbm, ⟨4, _⟩ => ⟨S_, .f32⟩
  | .hbm, ⟨5, _⟩ => ⟨S8x4096, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x4096, .f32⟩
  | .hbm, ⟨10, _⟩ => ⟨S8x4096x1, .f32⟩
  | .hbm, ⟨11, _⟩ => ⟨S8x1x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .f32⟩
  | .hbm, ⟨27, _⟩ => ⟨S8x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  shapeCasts_S2x4x1x64x64_S8x4096 : S2x4x1x64x64.ShapeCasts S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Pieces.lean ====
import proofs.«128334_j2602750181383_1_alg».proof.Proof.Gen.KernelIdeal.Frame
import Idealize.ShloMosaic.Lib.Pipeline.Value
import Idealize.ShloMosaic.Lib.WritesUnit
import Idealize.ShloMosaic.Lib.Tactic

noncomputable section

open Idealize.ShloMosaic Idealize.ShloMosaic.TcCoe Idealize.SL.Sem
open Idealize.ShloMosaic.Pipeline (Dat)

/-
  What each control case of the kernel body leaves in its two accumulators and, where it stores them, in its two output
  blocks — read back as values of the body's arithmetic (the payload terms), at any float instance.

  The body keeps two running minima.  The ROW accumulator (one [8, 256] block per row tile) is reset to +∞ when a sweep
  over the column tiles begins and met with the current tile's row minima at every point.  The COLUMN accumulator (the
  whole [8, 4096] table) is reset to +∞ at the very first point; at every point the 256 columns of the current column
  tile are met with the tile's column minima and every other column is kept.
-/
namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One store of a whole [8, 4096] table, read back, is the table stored. -/
theorem read_writes_whole {κ : Kind} {sp : Space} (v : View sig κ sp S8x4096 .f32) (f : v.ty.Contents (Elt F))
    (w : S8x4096.Idx → Elt F .f32) :
    v.read (Elt F) (v.writes (Elt F) f [⟨Rect.unit (s := S8x4096) ![0, 0] S8x4096.size inb_S8x4096_S8x4096_0_0, w⟩]) = w := by
  rw [View.read_writes_eq_canon _ _ _ (fun y => ⟨_, List.mem_singleton_self _, View.mem_set_unit_zero hz2 inb_S8x4096_S8x4096_0_0 y⟩),
    View.canon_unit_zero hz2]

/-- The 256 columns of an [8, 4096] table that the current column tile addresses. -/
def colBlock (i : grid0.Coords) (X : Vec F S8x4096 .f32) : Vec F S8x256 .f32 :=
  View.ld X (Rect.unit (s := S8x4096) (k0_off1 i) S8x256.size (k0_off1_inb i))

/-- An [8, 4096] table with those 256 columns replaced by a block. -/
def colStore (i : grid0.Coords) (w : Vec F S8x256 .f32) (X : Vec F S8x4096 .f32) : Vec F S8x4096 .f32 :=
  fun y => if h : ∀ a, k0_off1 i a ≤ (y a).val ∧ (y a).val < k0_off1 i a + S8x256.size a then
      w (Rect.unitLocal (s := S8x4096) (off := k0_off1 i) (size := S8x256.size) y h)
    else X y

/-- Case A (the first point): the row accumulator is reset to +∞ and met with the tile's row minima. -/
theorem rowAcc_A (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : cond0_0 i) (hc1 : cond0_1 i) (hc2 : ¬cond0_2 i) (hc3 : ¬cond0_3 i)
    (x0 x1 : Vec F S8x256x3 .f32) :
    sout0_A_0 c i a2 h2 a3 h3 a4 h4 a5 h5 a6 h6 a7 h7 hc0 hc1 hc2 hc3 x0 x1 = k0_pay5 x0 x1 k0_pay3 := by
  unfold sout0_A_0
  rw [View.read_writes_eq_canon _ _ _ (scover0_A_0 c i a2 h2 a3 h3 a4 h4 a5 h5 a6 h6 a7 h7 hc0 hc1 hc2 hc3 x0 x1)]
  unfold kernelRun0_A
  dsimp only
  sl_unfold_words
  rw [View.canon_cons_unit_zero (S := S8x256) hz2, View.readCov_unit_zero (S := S8x256) _ hz2]
  simp only [View.readAt_eq_ld, h2.read_unread, h3.read_unread, h6.read_unread, View.ld_unit_zero (S := S8x256x3) hz3, View.ld_unit_zero (S := S8x256) hz2]

/-- Case D (a later sweep begins): the same reset. -/
theorem rowAcc_D (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : ¬cond0_0 i) (hc1 : cond0_1 i) (hc2 : ¬cond0_2 i) (hc3 : ¬cond0_3 i)
    (x0 x1 : Vec F S8x256x3 .f32) (xs1 : Vec F S8x4096 .f32) :
    sout0_D_0 c i a2 h2 a3 h3 a4 h4 a5 h5 a6 h6 a7 h7 hc0 hc1 hc2 hc3 x0 x1 xs1 = k0_pay5 x0 x1 k0_pay3 := by
  unfold sout0_D_0
  rw [View.read_writes_eq_canon _ _ _ (scover0_D_0 c i a2 h2 a3 h3 a4 h4 a5 h5 a6 h6 a7 h7 hc0 hc1 hc2 hc3 x0 x1 xs1)]
  unfold kernelRun0_D
  dsimp only
  sl_unfold_words
  rw [View.canon_cons_unit_zero (S := S8x256) hz2, View.readCov_unit_zero (S := S8x256) _ hz2]
  simp only [View.readAt_eq_ld, h2.read_unread, h3.read_unread, h6.read_unread, View.ld_unit_zero (S := S8x256x3) hz3, View.ld_unit_zero (S := S8x256) hz2]

/-- Case B: the row accumulator, carried from the point before, is met with this tile's row minima. -/
theorem rowAcc_B (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : ¬cond0_0 i) (hc1 : ¬cond0_1 i) (hc2 : ¬cond0_2 i) (hc3 : ¬cond0_3 i)
    (x0 x1 : Vec F S8x256x3 .f32) (xs0 : Vec F S8x256 .f32) (xs1 : Vec F S8x4096 .f32) :
    sout0_B_0 c i a2 h2 a3 h3 a4 h4 a5 h5 a6 h6 a7 h7 hc0 hc1 hc2 hc3 x0 x1 xs0 xs1 = k0_pay5 x0 x1 xs0 := by
  unfold sout0_B_0
  rw [View.read_writes_eq_canon _ _ _ (scover0_B_0 c i a2 h2 a3 h3 a4 h4 a5 h5 a6 h6 a7 h7 hc0 hc1 hc2 hc3 x0 x1 xs0 xs1)]
  unfold kernelRun0_B
  dsimp only
  sl_unfold_words
  rw [View.canon_unit_zero hz2]
  simp only [View.readAt_eq_ld, h2.read_unread, h3.read_unread, h6.read_unread, View.ld_unit_zero (S := S8x256x3) hz3, View.ld_unit_zero (S := S8x256) hz2]

/-- Case C: the row accumulator, carried from the point before, is met with this tile's row minima. -/
theorem rowAcc_C (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : ¬cond0_0 i) (hc1 : ¬cond0_1 i) (hc2 : cond0_2 i) (hc3 : ¬cond0_3 i)
    (x0 x1 : Vec F S8x256x3 .f32) (xs0 : Vec F S8x256 .f32) (xs1 : Vec F S8x4096 .f32) :
    sout0_C_0 c i a2 h2 a3 h3 a4 h4 a5 h5 a6 h6 a7 h7 hc0 hc1 hc2 hc3 x0 x1 xs0 xs1 = k0_pay5 x0 x1 xs0 := by
  unfold sout0_C_0
  rw [View.read_writes_eq_canon _ _ _ (scover0_C_0 c i a2 h2 a3 h3 a4 h4 a5 h5 a6 h6 a7 h7 hc0 hc1 hc2 hc3 x0 x1 xs0 xs1)]
  unfold kernelRun0_C
  dsimp only
  sl_unfold_words
  rw [View.canon_unit_zero hz2]
  simp only [View.readAt_eq_ld, h2.read_unread, h3.read_unread, h6.read_unread, View.ld_unit_zero (S := S8x256x3) hz3, View.ld_unit_zero (S := S8x256) hz2]

/-- Case E: the row accumulator, carried from the point before, is met with this tile's row minima. -/
theorem rowAcc_E (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : ¬cond0_0 i) (hc1 : ¬cond0_1 i) (hc2 : cond0_2 i) (hc3 : cond0_3 i)
    (x0 x1 : Vec F S8x256x3 .f32) (xs0 : Vec F S8x256 .f32) (xs1 : Vec F S8x4096 .f32) :
    sout0_E_0 c i a2 h2 a3 h3 a4 h4 a5 h5 a6 h6 a7 h7 hc0 hc1 hc2 hc3 x0 x1 xs0 xs1 = k0_pay5 x0 x1 xs0 := by
  unfold sout0_E_0
  rw [View.read_writes_eq_canon _ _ _ (scover0_E_0 c i a2 h2 a3 h3 a4 h4 a5 h5 a6 h6 a7 h7 hc0 hc1 hc2 hc3 x0 x1 xs0 xs1)]
  unfold kernelRun0_E
  dsimp only
  sl_unfold_words
  rw [View.canon_unit_zero hz2]
  simp only [View.readAt_eq_ld, h2.read_unread, h3.read_unread, h6.read_unread, View.ld_unit_zero (S := S8x256x3) hz3, View.ld_unit_zero (S := S8x256) hz2]

/-- Case A (the first point): the column accumulator is reset to +∞ everywhere, then this tile's columns are met with
    the tile's column minima. -/
theorem colAcc_A (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : cond0_0 i) (hc1 : cond0_1 i) (hc2 : ¬cond0_2 i) (hc3 : ¬cond0_3 i)
    (x0 x1 : Vec F S8x256x3 .f32) :
    sout0_A_1 c i a2 h2 a3 h3 a4 h4 a5 h5 a6 h6 a7 h7 hc0 hc1 hc2 hc3 x0 x1 = colStore i (k0_pay1 (k0_pay4 x0 x1) (colBlock i k0_pay2)) k0_pay2 := by
  funext y
  unfold sout0_A_1 kernelRun0_A
  dsimp only
  sl_unfold_words
  refine (View.read_writes_cons_unit VS0_1 VS0_1.junk _ _ _ y rfl).trans ?_
  have e1 : View.read (Elt F) VS0_1 (VS0_1.writes (Elt F) VS0_1.junk
      [⟨Rect.unit (s := S8x4096) ![0, 0] S8x4096.size inb_S8x4096_S8x4096_0_0, k0_pay2⟩]) = k0_pay2 :=
    read_writes_whole VS0_1 _ _
  have e2 : View.read (Elt F) a7.view (a7.view.writes (Elt F) a7.view.junk
      [⟨Rect.unit (s := S8x4096) ![0, 0] S8x4096.size inb_S8x4096_S8x4096_0_0, k0_pay2⟩]) = k0_pay2 :=
    read_writes_whole a7.view _ _
  rw [e1]
  unfold colStore colBlock
  simp only [View.readAt_eq_ld, e2, h2.read_unread, h3.read_unread, View.ld_unit_zero (S := S8x256x3) hz3]
  rfl

/-- Case B: the column accumulator keeps what the point before left, but for this tile's columns, which are met with
    the tile's column minima. -/
theorem colAcc_B (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : ¬cond0_0 i) (hc1 : ¬cond0_1 i) (hc2 : ¬cond0_2 i) (hc3 : ¬cond0_3 i)
    (x0 x1 : Vec F S8x256x3 .f32) (xs0 : Vec F S8x256 .f32) (xs1 : Vec F S8x4096 .f32) :
    sout0_B_1 c i a2 h2 a3 h3 a4 h4 a5 h5 a6 h6 a7 h7 hc0 hc1 hc2 hc3 x0 x1 xs0 xs1 = colStore i (k0_pay1 (k0_pay4 x0 x1) (colBlock i xs1)) xs1 := by
  funext y
  unfold sout0_B_1 kernelRun0_B
  dsimp only
  sl_unfold_words
  refine (View.read_writes_cons_unit a7.view (h7.unread xs1) _ _ [] y rfl).trans ?_
  unfold colStore colBlock
  simp only [View.writes_nil, h7.read_unread, View.readAt_eq_ld, h2.read_unread, h3.read_unread, View.ld_unit_zero (S := S8x256x3) hz3]
  rfl

/-- Case C: the column accumulator keeps what the point before left, but for this tile's columns, which are met with
    the tile's column minima. -/
theorem colAcc_C (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : ¬cond0_0 i) (hc1 : ¬cond0_1 i) (hc2 : cond0_2 i) (hc3 : ¬cond0_3 i)
    (x0 x1 : Vec F S8x256x3 .f32) (xs0 : Vec F S8x256 .f32) (xs1 : Vec F S8x4096 .f32) :
    sout0_C_1 c i a2 h2 a3 h3 a4 h4 a5 h5 a6 h6 a7 h7 hc0 hc1 hc2 hc3 x0 x1 xs0 xs1 = colStore i (k0_pay1 (k0_pay4 x0 x1) (colBlock i xs1)) xs1 := by
  funext y
  unfold sout0_C_1 kernelRun0_C
  dsimp only
  sl_unfold_words
  refine (View.read_writes_cons_unit a7.view (h7.unread xs1) _ _ [] y rfl).trans ?_
  unfold colStore colBlock
  simp only [View.writes_nil, h7.read_unread, View.readAt_eq_ld, h2.read_unread, h3.read_unread, View.ld_unit_zero (S := S8x256x3) hz3]
  rfl

/-- Case D: the column accumulator keeps what the point before left, but for this tile's columns, which are met with
    the tile's column minima. -/
theorem colAcc_D (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : ¬cond0_0 i) (hc1 : cond0_1 i) (hc2 : ¬cond0_2 i) (hc3 : ¬cond0_3 i)
    (x0 x1 : Vec F S8x256x3 .f32) (xs1 : Vec F S8x4096 .f32) :
    sout0_D_1 c i a2 h2 a3 h3 a4 h4 a5 h5 a6 h6 a7 h7 hc0 hc1 hc2 hc3 x0 x1 xs1 = colStore i (k0_pay1 (k0_pay4 x0 x1) (colBlock i xs1)) xs1 := by
  funext y
  unfold sout0_D_1 kernelRun0_D
  dsimp only
  sl_unfold_words
  refine (View.read_writes_cons_unit a7.view (h7.unread xs1) _ _ [] y rfl).trans ?_
  unfold colStore colBlock
  simp only [View.writes_nil, h7.read_unread, View.readAt_eq_ld, h2.read_unread, h3.read_unread, View.ld_unit_zero (S := S8x256x3) hz3]
  rfl

/-- Case E: the column accumulator keeps what the point before left, but for this tile's columns, which are met with
    the tile's column minima. -/
theorem colAcc_E (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : ¬cond0_0 i) (hc1 : ¬cond0_1 i) (hc2 : cond0_2 i) (hc3 : cond0_3 i)
    (x0 x1 : Vec F S8x256x3 .f32) (xs0 : Vec F S8x256 .f32) (xs1 : Vec F S8x4096 .f32) :
    sout0_E_1 c i a2 h2 a3 h3 a4 h4 a5 h5 a6 h6 a7 h7 hc0 hc1 hc2 hc3 x0 x1 xs0 xs1 = colStore i (k0_pay1 (k0_pay4 x0 x1) (colBlock i xs1)) xs1 := by
  funext y
  unfold sout0_E_1 kernelRun0_E
  dsimp only
  sl_unfold_words
  refine (View.read_writes_cons_unit a7.view (h7.unread xs1) _ _ [] y rfl).trans ?_
  unfold colStore colBlock
  simp only [View.writes_nil, h7.read_unread, View.readAt_eq_ld, h2.read_unread, h3.read_unread, View.ld_unit_zero (S := S8x256x3) hz3]
  rfl

/-- Cases C and E (a sweep over the column tiles ends): the row-minima block written back is the row accumulator. -/
theorem rowOut_C (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : ¬cond0_0 i) (hc1 : ¬cond0_1 i) (hc2 : cond0_2 i) (hc3 : ¬cond0_3 i)
    (x0 x1 : Vec F S8x256x3 .f32) (xs0 : Vec F S8x256 .f32) (xs1 : Vec F S8x4096 .f32) :
    out0_C_2 c i a2 h2 a3 h3 a4 h4 a5 h5 a6 h6 a7 h7 hc0 hc1 hc2 hc3 x0 x1 xs0 xs1 = k0_pay5 x0 x1 xs0 := by
  unfold out0_C_2
  rw [View.read_writes_eq_canon _ _ _ (cover0_C_2 c i a2 h2 a3 h3 a4 h4 a5 h5 a6 h6 a7 h7 hc0 hc1 hc2 hc3 x0 x1 xs0 xs1)]
  unfold kernelRun0_C
  dsimp only
  sl_unfold_words
  rw [View.canon_unit_zero hz2, View.readCov_unit_zero (S := S8x256) _ hz2]
  simp only [View.readAt_eq_ld, h2.read_unread, h3.read_unread, h6.read_unread, View.ld_unit_zero (S := S8x256x3) hz3, View.ld_unit_zero (S := S8x256) hz2]

theorem rowOut_E (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : ¬cond0_0 i) (hc1 : ¬cond0_1 i) (hc2 : cond0_2 i) (hc3 : cond0_3 i)
    (x0 x1 : Vec F S8x256x3 .f32) (xs0 : Vec F S8x256 .f32) (xs1 : Vec F S8x4096 .f32) :
    out0_E_2 c i a2 h2 a3 h3 a4 h4 a5 h5 a6 h6 a7 h7 hc0 hc1 hc2 hc3 x0 x1 xs0 xs1 = k0_pay5 x0 x1 xs0 := by
  unfold out0_E_2
  rw [View.read_writes_eq_canon _ _ _ (cover0_E_2 c i a2 h2 a3 h3 a4 h4 a5 h5 a6 h6 a7 h7 hc0 hc1 hc2 hc3 x0 x1 xs0 xs1)]
  unfold kernelRun0_E
  dsimp only
  sl_unfold_words
  rw [View.canon_unit_zero hz2, View.readCov_unit_zero (S := S8x256) _ hz2]
  simp only [View.readAt_eq_ld, h2.read_unread, h3.read_unread, h6.read_unread, View.ld_unit_zero (S := S8x256x3) hz3, View.ld_unit_zero (S := S8x256) hz2]

/-- Case E (the last point): the column-minima table written back is the column accumulator. -/
theorem colOut_E (c : Dev nD) (i : grid0.Coords) (a2 : Memref sig .tc .vmem S8x256x3 .f32) (h2 : a2.IsWhole) (a3 : Memref sig .tc .vmem S8x256x3 .f32) (h3 : a3.IsWhole) (a4 : Memref sig .tc .vmem S8x256 .f32) (h4 : a4.IsWhole) (a5 : Memref sig .tc .vmem S8x4096 .f32) (h5 : a5.IsWhole) (a6 : Memref sig .tc .vmem S8x256 .f32) (h6 : a6.IsWhole) (a7 : Memref sig .tc .vmem S8x4096 .f32) (h7 : a7.IsWhole) (hc0 : ¬cond0_0 i) (hc1 : ¬cond0_1 i) (hc2 : cond0_2 i) (hc3 : cond0_3 i)
    (x0 x1 : Vec F S8x256x3 .f32) (xs0 : Vec F S8x256 .f32) (xs1 : Vec F S8x4096 .f32) :
    out0_E_3 c i a2 h2 a3 h3 a4 h4 a5 h5 a6 h6 a7 h7 hc0 hc1 hc2 hc3 x0 x1 xs0 xs1 = colStore i (k0_pay1 (k0_pay4 x0 x1) (colBlock i xs1)) xs1 := by
  refine Eq.trans ?_ (colAcc_E c i a2 h2 a3 h3 a4 h4 a5 h5 a6 h6 a7 h7 hc0 hc1 hc2 hc3 x0 x1 xs0 xs1)
  unfold out0_E_3 sout0_E_1
  rw [View.read_writes_eq_canon _ _ _ (cover0_E_3 c i a2 h2 a3 h3 a4 h4 a5 h5 a6 h6 a7 h7 hc0 hc1 hc2 hc3 x0 x1 xs0 xs1)]
  unfold kernelRun0_E
  dsimp only
  sl_unfold_words
  rw [View.canon_unit_zero hz2]
  simp only [View.readAt_eq_ld, View.ld_unit_zero (S := S8x4096) hz2]

end Cert.KernelIdeal.Pieces
end
-- ==== Proof.Blocks.lean ====
/-
  Which rows of the two point clouds a grid point's input blocks hold, and which columns of the column accumulator it
  addresses: point `t` of the 16 × 16 grid is row tile `t / 16` of the cloud `x` against row tile `t % 16` of the cloud `y`.
-/
import proofs.«128334_j2602750181383_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The two clouds as the region finds them, and the row tiles of them a grid point sees. -/
abbrev xarr (c : Dev nD) : Vec F S8x4096x3 .f32 := V m c main_arg1
abbrev yarr (c : Dev nD) : Vec F S8x4096x3 .f32 := V m c main_arg0
abbrev xblk (c : Dev nD) (t : Fin cfg0.N) : Vec F S8x256x3 .f32 := iblk m c 0 t
abbrev yblk (c : Dev nD) (t : Fin cfg0.N) : Vec F S8x256x3 .f32 := iblk m c 1 t

theorem idx0 : ∀ t : Fin cfg0.N, win0_0.index t 0 = 0 ∧ win0_0.index t 1 = t.val / 16 ∧ win0_0.index t 2 = 0 :=
  (by decide +kernel : ∀ t : Fin grid0.N, win0_0.index t 0 = 0 ∧ win0_0.index t 1 = t.val / 16 ∧ win0_0.index t 2 = 0)
theorem idx1 : ∀ t : Fin cfg0.N, win0_1.index t 0 = 0 ∧ win0_1.index t 1 = t.val % 16 ∧ win0_1.index t 2 = 0 :=
  (by decide +kernel : ∀ t : Fin grid0.N, win0_1.index t 0 = 0 ∧ win0_1.index t 1 = t.val % 16 ∧ win0_1.index t 2 = 0)
theorem off1 : ∀ t : Fin cfg0.N, k0_off1 (grid0.coords t) = ![0, t.val % 16 * 256] :=
  (by decide +kernel : ∀ t : Fin grid0.N, k0_off1 (grid0.coords t) = ![0, t.val % 16 * 256])

/-- Point `t` sees rows `256 (t / 16) …` of the cloud `x`. -/
theorem xblk_apply (c : Dev nD) (t : Fin cfg0.N) (b : Fin 8) (r : Fin 256) (k : Fin 3) (p : Fin 4096)
    (hp : p.val = t.val / 16 * 256 + r.val) : xblk m c t (ix3 b r k) = xarr m c (ix3 b p k) := by
  unfold xblk xarr iblk
  rw [View.read_apply]
  show V m c main_arg1 _ = V m c main_arg1 _
  congr 1
  funext a
  apply Fin.ext
  obtain ⟨h0, h1, h2⟩ := idx0 t
  match a with
  | ⟨0, _⟩ => show win0_0.index t 0 * 8 + 1 * b.val = b.val; rw [h0]; omega
  | ⟨1, _⟩ => show win0_0.index t 1 * 256 + 1 * r.val = p.val; rw [h1, hp]; omega
  | ⟨2, _⟩ => show win0_0.index t 2 * 3 + 1 * k.val = k.val; rw [h2]; omega

/-- Point `t` sees rows `256 (t % 16) …` of the cloud `y`. -/
theorem yblk_apply (c : Dev nD) (t : Fin cfg0.N) (b : Fin 8) (s : Fin 256) (k : Fin 3) (q : Fin 4096)
    (hq : q.val = t.val % 16 * 256 + s.val) : yblk m c t (ix3 b s k) = yarr m c (ix3 b q k) := by
  unfold yblk yarr iblk
  rw [View.read_apply]
  show V m c main_arg0 _ = V m c main_arg0 _
  congr 1
  funext a
  apply Fin.ext
  obtain ⟨h0, h1, h2⟩ := idx1 t
  match a with
  | ⟨0, _⟩ => show win0_1.index t 0 * 8 + 1 * b.val = b.val; rw [h0]; omega
  | ⟨1, _⟩ => show win0_1.index t 1 * 256 + 1 * s.val = q.val; rw [h1, hq]; omega
  | ⟨2, _⟩ => show win0_1.index t 2 * 3 + 1 * k.val = k.val; rw [h2]; omega

end Cert.KernelIdeal.Blocks
end
-- ==== Proof.Steps.lean ====
/-
  What the two running minima hold after each point of the 16 × 16 grid, one equation per kind of point.

  Point `t` meets the row accumulator with the row minima of its tile (`k0_pay5`): from +∞ (`k0_pay3`) when a sweep over
  the column tiles begins (`t % 16 = 0`), from what the point before left otherwise.  It replaces the 256 columns of the
  column accumulator that its column tile addresses by their meet with the tile's column minima (`k0_pay1` of `k0_pay4`)
  and keeps every other column: over +∞ everywhere (`k0_pay2`) at the first point, over what the point before left
  otherwise.  The row block written back when a sweep ends (`t % 16 = 15`) is the row accumulator, and the table written
  back at the last point is the column accumulator.
-/
import proofs.«128334_j2602750181383_1_alg».proof.Proof.Pieces
import proofs.«128334_j2602750181383_1_alg».proof.Proof.Blocks

noncomputable section

namespace Cert.KernelIdeal.Steps

open Cert.KernelIdeal Cert.KernelIdeal.Gen Cert.KernelIdeal.Pieces Cert.KernelIdeal.Blocks Idealize.ShloMosaic
  Idealize.ShloMosaic.TcCoe Idealize.SL.Sem

variable {F : FTy → Type} [FloatOps F] (m : (ℓ : Loc nD τ sig) → Buf (Elt F) ℓ)

/-- The row accumulator and the column accumulator after point `t`, and after the point before it. -/
abbrev rowNow (c : Dev nD) (t : Fin cfg0.N) : Vec F S8x256 .f32 := (outsAt0 m c t.val t.isLt).2.2.1
abbrev colNow (c : Dev nD) (t : Fin cfg0.N) : Vec F S8x4096 .f32 := (outsAt0 m c t.val t.isLt).2.2.2
abbrev prevRow (c : Dev nD) (t : Fin cfg0.N) : Vec F S8x256 .f32 :=
  (outsAt0 m c (t.val - 1) (Nat.lt_of_le_of_lt (Nat.sub_le _ _) t.isLt)).2.2.1
abbrev prevCol (c : Dev nD) (t : Fin cfg0.N) : Vec F S8x4096 .f32 :=
  (outsAt0 m c (t.val - 1) (Nat.lt_of_le_of_lt (Nat.sub_le _ _) t.isLt)).2.2.2

/-- Where a sweep over the column tiles begins, the row accumulator is the tile's row minima met with +∞. -/
theorem row_first (c : Dev nD) (t : Fin cfg0.N) (h : t.val % 16 = 0) :
    rowNow m c t = k0_pay5 (xblk m c t) (yblk m c t) k0_pay3 := by
  have hN : t.val < 256 := lt_of_lt_of_eq t.isLt (show cfg0.N = 256 from N_0)
  have h1 : t.val % 16 = 0 := h
  have h2 : ¬t.val % 16 = 15 := by omega
  have h3 : ¬t.val % 256 = 255 := by omega
  unfold rowNow
  by_cases h0 : t.val % 256 = 0
  · rw [outsAt0_A m c t h0 h1 h2 h3]
    dsimp only
    exact rowAcc_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)
  · rw [outsAt0_D m c t h0 h1 h2 h3]
    dsimp only
    exact rowAcc_D (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (prevCol m c t)

/-- Elsewhere it is the tile's row minima met with what the point before left. -/
theorem row_next (c : Dev nD) (t : Fin cfg0.N) (h : ¬t.val % 16 = 0) :
    rowNow m c t = k0_pay5 (xblk m c t) (yblk m c t) (prevRow m c t) := by
  have hN : t.val < 256 := lt_of_lt_of_eq t.isLt (show cfg0.N = 256 from N_0)
  have h0 : ¬t.val % 256 = 0 := by omega
  have h1 : ¬t.val % 16 = 0 := h
  unfold rowNow
  by_cases h2 : t.val % 16 = 15
  · by_cases h3 : t.val % 256 = 255
    · rw [outsAt0_E m c t h0 h1 h2 h3]
      dsimp only
      exact rowAcc_E (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)
    · rw [outsAt0_C m c t h0 h1 h2 h3]
      dsimp only
      exact rowAcc_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prevRow m c t) (prevCol m c t)
  · have h3 : ¬t.val % 256 = 255 := by omega
    rw [outsAt0_B m c t h0 h1 h2 h3]
    dsimp only
    exact rowAcc_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (prevRow m c t) (prevCol m c t)

/-- At the first point the column accumulator is +∞ but for the tile's columns, which are the tile's column minima met
    with +∞. -/
theorem col_first (c : Dev nD) (t : Fin cfg0.N) (h : t.val = 0) :
    colNow m c t = colStore (grid0.coords t) (k0_pay1 (k0_pay4 (xblk m c t) (yblk m c t)) (colBlock (grid0.coords t) k0_pay2)) k0_pay2 := by
  have h0 : t.val % 256 = 0 := by omega
  have h1 : t.val % 16 = 0 := by omega
  have h2 : ¬t.val % 16 = 15 := by omega
  have h3 : ¬t.val % 256 = 255 := by omega
  unfold colNow
  rw [outsAt0_A m c t h0 h1 h2 h3]
  dsimp only
  exact colAcc_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)

/-- At every later point it is what the point before left but for the tile's columns, which are met with the tile's
    column minima. -/
theorem col_next (c : Dev nD) (t : Fin cfg0.N) (h : ¬t.val = 0) :
    colNow m c t = colStore (grid0.coords t) (k0_pay1 (k0_pay4 (xblk m c t) (yblk m c t)) (colBlock (grid0.coords t) (prevCol m c t))) (prevCol m c t) := by
  have hN : t.val < 256 := lt_of_lt_of_eq t.isLt (show cfg0.N = 256 from N_0)
  have h0 : ¬t.val % 256 = 0 := by omega
  unfold colNow
  by_cases h1 : t.val % 16 = 0
  · have h2 : ¬t.val % 16 = 15 := by omega
    have h3 : ¬t.val % 256 = 255 := by omega
    rw [outsAt0_D m c t h0 h1 h2 h3]
    dsimp only
    exact colAcc_D (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (prevCol m c t)
  · by_cases h2 : t.val % 16 = 15
    · by_cases h3 : t.val % 256 = 255
      · rw [outsAt0_E m c t h0 h1 h2 h3]
        dsimp only
        exact colAcc_E (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)
      · rw [outsAt0_C m c t h0 h1 h2 h3]
        dsimp only
        exact colAcc_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prevRow m c t) (prevCol m c t)
    · have h3 : ¬t.val % 256 = 255 := by omega
      rw [outsAt0_B m c t h0 h1 h2 h3]
      dsimp only
      exact colAcc_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (prevRow m c t) (prevCol m c t)

/-- Where a sweep over the column tiles ends, the row block written back is the row accumulator. -/
theorem rowOut (c : Dev nD) (t : Fin cfg0.N) (h : t.val % 16 = 15) :
    (outsAt0 m c t.val t.isLt).1 = rowNow m c t := by
  have hN : t.val < 256 := lt_of_lt_of_eq t.isLt (show cfg0.N = 256 from N_0)
  have h0 : ¬t.val % 256 = 0 := by omega
  have h1 : ¬t.val % 16 = 0 := by omega
  have h2 : t.val % 16 = 15 := h
  unfold rowNow
  by_cases h3 : t.val % 256 = 255
  · rw [outsAt0_E m c t h0 h1 h2 h3]
    dsimp only
    exact (rowOut_E (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)).trans
      (rowAcc_E (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)).symm
  · rw [outsAt0_C m c t h0 h1 h2 h3]
    dsimp only
    exact (rowOut_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prevRow m c t) (prevCol m c t)).trans
      (rowAcc_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prevRow m c t) (prevCol m c t)).symm

/-- At the last point the table written back is the column accumulator. -/
theorem colOut (c : Dev nD) (t : Fin cfg0.N) (h : t.val = 255) :
    (outsAt0 m c t.val t.isLt).2.1 = colNow m c t := by
  have h0 : ¬t.val % 256 = 0 := by omega
  have h1 : ¬t.val % 16 = 0 := by omega
  have h2 : t.val % 16 = 15 := by omega
  have h3 : t.val % 256 = 255 := by omega
  unfold colNow
  rw [outsAt0_E m c t h0 h1 h2 h3]
  dsimp only
  exact (colOut_E (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)).trans
    (colAcc_E (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)).symm

end Cert.KernelIdeal.Steps

end
-- ==== Proof.Dist.lean ====
/-
  The mathematics both programs compute, over the extended reals.

  Two clouds of 4096 points of ℝ³ per batch entry, `x` and `y` (each f32[8, 4096, 3]).  For a batch entry `b` and
  points `p` of `x` and `q` of `y`, the clamped squared distance is
      dist x y b p q = max ((|x_p|² + |y_q|²) − 2 · ⟨x_p, y_q⟩) 0,
  and the two nearest-neighbour tables are its minima over one of the two point indices (from +∞):
      nearX x y (b, p) = min_q dist x y b p q,      nearY x y (b, q) = min_p dist x y b p q.
  The literals 2, 0 and +∞ are kept as the f32 words the programs spell; nothing here evaluates them.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The shape of a point cloud and of a nearest-neighbour table. -/
abbrev Pts : Shape := ⟨3, ![8, 4096, 3]⟩
abbrev Tbl : Shape := ⟨2, ![8, 4096]⟩

/-- +∞, 2 and 0 as the f32 words both programs write. -/
abbrev pinf : EReal := Ideal.ofBits .f32 0x7F800000#32
abbrev two : EReal := Ideal.ofBits .f32 0x40000000#32
abbrev zero : EReal := Ideal.ofBits .f32 0x00000000#32

/-- |x_p|² in batch entry `b`: the sum of the three squared coordinates. -/
def sq (x : Pts.Idx → EReal) (b : Fin 8) (p : Fin 4096) : EReal :=
  ∑ k : Fin 3, x (ix3 b p k) * x (ix3 b p k)

/-- ⟨x_p, y_q⟩ in batch entry `b`. -/
def dot (x y : Pts.Idx → EReal) (b : Fin 8) (p q : Fin 4096) : EReal :=
  ∑ k : Fin 3, x (ix3 b p k) * y (ix3 b q k)

/-- The clamped squared distance between point `p` of `x` and point `q` of `y`. -/
def dist (x y : Pts.Idx → EReal) (b : Fin 8) (p q : Fin 4096) : EReal :=
  max ((sq x b p + sq y b q) - two * dot x y b p q) zero

/-- For each point of `x`, the least clamped squared distance to a point of `y`. -/
def nearX (x y : Pts.Idx → EReal) : Tbl.Idx → EReal :=
  fun i => (Finset.univ : Finset (Fin 4096)).fold min pinf (fun q => dist x y (i 0) (i 1) q)

/-- For each point of `y`, the least clamped squared distance to a point of `x`. -/
def nearY (x y : Pts.Idx → EReal) : Tbl.Idx → EReal :=
  fun i => (Finset.univ : Finset (Fin 4096)).fold min pinf (fun p => dist x y (i 0) p (i 1))

/-- A lower bound of `nearX` at an entry is a lower bound of +∞ and of every distance in its row. -/
theorem le_nearX_iff (x y : Pts.Idx → EReal) (i : Tbl.Idx) (z : EReal) :
    z ≤ nearX x y i ↔ z ≤ pinf ∧ ∀ q : Fin 4096, z ≤ dist x y (i 0) (i 1) q := by
  unfold nearX
  rw [Finset.le_fold_min]
  simp only [Finset.mem_univ, forall_true_left]

/-- A lower bound of `nearY` at an entry is a lower bound of +∞ and of every distance in its column. -/
theorem le_nearY_iff (x y : Pts.Idx → EReal) (i : Tbl.Idx) (z : EReal) :
    z ≤ nearY x y i ↔ z ≤ pinf ∧ ∀ p : Fin 4096, z ≤ dist x y (i 0) p (i 1) := by
  unfold nearY
  rw [Finset.le_fold_min]
  simp only [Finset.mem_univ, forall_true_left]

end Cert.Chamfer

end
-- ==== Proof.LibMinSingle.lean ====
/-
  A general lemma: a minimum reduction over one axis, read over the extended reals.

  At the ideal instance `minimumf` is `min` on the extended reals, which commutes and associates, so a
  `vector.multi_reduction <minimumf>` over ONE axis is, at each result index `j`, the fold of `min` from the
  accumulator word's value over that axis's coordinates `k`, the source read at `j` with `k` inserted on the reduced axis
  — at any rank, axis and extents.  Its lower bounds are then the lower bounds of the initial value and of every entry
  along the axis (`Finset.le_fold_min`).  (The library states the same for `maximumf`.)
-/
import Idealize.ShloMosaic.PureOps.Reduce
import Idealize.ShloMosaic.PureOps.Ideal.Laws

namespace Cert.Lib

open Idealize.ShloMosaic

/-- A minimum reduction over ONE axis, read over the extended reals: the fold of `min` from the initial word's value
    over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Its lower bounds: those of the initial value and of every entry along the reduced axis. -/
theorem le_multiReduction_minimumf_single_iff {φ : FTy} {s t : Shape} {a : Fin s.rank} (src : FVec Ideal s φ)
    (acc : BitVec φ.bits) (h : s.Reduces [a] t) (hφ : FKind.Formats φ) (hacc : acc = FKind.minimumf.neutral φ hφ)
    (j : t.Idx) (z : EReal) :
    z ≤ multiReduction (F := Ideal) .minimumf [a] t src acc h hφ hacc j
      ↔ z ≤ FloatOps.ofBits (F := Ideal) φ acc ∧ ∀ k : Fin (s.size a), z ≤ src (h.lift j k) := by
  rw [multiReduction_minimumf_single, Finset.le_fold_min]
  exact and_congr Iff.rfl ⟨fun H k => H k (Finset.mem_univ _), fun H k _ => H k⟩

end Cert.Lib
-- ==== Proof.Payload.lean ====
/-
  The kernel body's arithmetic read at an index, over the extended reals.

  One step of the kernel holds a block `u` of 256 points of the first cloud and a block `v` of 256 points of the
  second, per batch entry.  Its five pure values are: the 256 × 256 table of clamped squared distances between the
  rows of `u` and the rows of `v` (the squared norms broadcast along rows and columns, minus twice the matrix of
  inner products, clamped below at 0); that table's minimum along each row folded into a running row minimum, and
  along each column folded into a running column minimum, both from +∞; and two tables that are +∞ everywhere.
  Each is read here at one entry: the distance table at (b, r, s) is `blockDist u v b r s`, and a lower bound of a
  folded minimum is a lower bound of the running value, of +∞ and of every entry of the row or column.
-/
import proofs.«128334_j2602750181383_1_alg».proof.Proof.Gen.KernelIdeal.Skeleton
import proofs.«128334_j2602750181383_1_alg».proof.Proof.Dist
import proofs.«128334_j2602750181383_1_alg».proof.Proof.LibMinSingle
import Idealize.ShloMosaic.PureOps.Reduce
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Cert.Chamfer Cert.Lib Idealize.ShloMosaic Idealize.ShloMosaic.ValueIdx

/-! ## A minimum over one axis -/

/-- A lower bound of the minimum along the last axis of a 256 × 256 table, from +∞: a lower bound of +∞ and of
    every entry of the row. -/
theorem le_rowMin_iff (d : FVec Ideal S8x256x256 .f32) (h : S8x256x256.Reduces [2] S8x256) (hφ : FKind.Formats .f32)
    (hacc : (0x7F800000#32 : BitVec 32) = FKind.minimumf.neutral .f32 hφ) (b : Fin 8) (r : Fin 256) (z : EReal) :
    z ≤ multiReduction (F := Ideal) .minimumf [2] S8x256 d 0x7F800000#32 h hφ hacc (ix2 b r)
      ↔ z ≤ pinf ∧ ∀ s : Fin 256, z ≤ d (ix3 b r s) := by
  rw [multiReduction_minimumf_single, Finset.le_fold_min]
  refine and_congr Iff.rfl ⟨fun H s => ?_, fun H s _ => ?_⟩
  · have e : h.lift (ix2 b r) s = ix3 b r s := funext fun a => Fin.ext (by
      match a with | ⟨0, _⟩ => rfl | ⟨1, _⟩ => rfl | ⟨2, _⟩ => rfl)
    rw [← e]; exact H s (Finset.mem_univ _)
  · have e : h.lift (ix2 b r) s = ix3 b r s := funext fun a => Fin.ext (by
      match a with | ⟨0, _⟩ => rfl | ⟨1, _⟩ => rfl | ⟨2, _⟩ => rfl)
    show z ≤ d (h.lift (ix2 b r) s)
    rw [e]; exact H s

/-- A lower bound of the minimum along the middle axis of a 256 × 256 table, from +∞: a lower bound of +∞ and of
    every entry of the column. -/
theorem le_colMin_iff (d : FVec Ideal S8x256x256 .f32) (h : S8x256x256.Reduces [1] S8x256) (hφ : FKind.Formats .f32)
    (hacc : (0x7F800000#32 : BitVec 32) = FKind.minimumf.neutral .f32 hφ) (b : Fin 8) (s : Fin 256) (z : EReal) :
    z ≤ multiReduction (F := Ideal) .minimumf [1] S8x256 d 0x7F800000#32 h hφ hacc (ix2 b s)
      ↔ z ≤ pinf ∧ ∀ r : Fin 256, z ≤ d (ix3 b r s) := by
  rw [multiReduction_minimumf_single, Finset.le_fold_min]
  refine and_congr Iff.rfl ⟨fun H r => ?_, fun H r _ => ?_⟩
  · have e : h.lift (ix2 b s) r = ix3 b r s := funext fun a => Fin.ext (by
      match a with | ⟨0, _⟩ => rfl | ⟨1, _⟩ => rfl | ⟨2, _⟩ => rfl)
    rw [← e]; exact H r (Finset.mem_univ _)
  · have e : h.lift (ix2 b s) r = ix3 b r s := funext fun a => Fin.ext (by
      match a with | ⟨0, _⟩ => rfl | ⟨1, _⟩ => rfl | ⟨2, _⟩ => rfl)
    show z ≤ d (h.lift (ix2 b s) r)
    rw [e]; exact H r

/-! ## The sum over the three coordinates of a point -/

/-- The sum along the last axis of an 8 × 256 × 3 array, at (b, r): the sum of its three entries there. -/
theorem laneSum_apply (w : FVec Ideal S8x256x3 .f32) (h : S8x256x3.Reduces [2] S8x256) (hφ : FKind.Formats .f32)
    (hacc : (0x00000000#32 : BitVec 32) = FKind.add.neutral .f32 hφ) (b : Fin 8) (r : Fin 256) :
    multiReduction (F := Ideal) .add [2] S8x256 w 0x00000000#32 h hφ hacc (ix2 b r) = ∑ k : Fin 3, w (ix3 b r k) := by
  refine (Ideal.multiReduction_add_single _ _ _ _ _ _).trans ?_
  refine Finset.sum_congr rfl fun k _ => congrArg w (funext fun a => Fin.ext ?_)
  match a with | ⟨0, _⟩ => rfl | ⟨1, _⟩ => rfl | ⟨2, _⟩ => rfl

/-! ## A vector of row values spread along rows, and along columns -/

/-- An 8 × 256 array viewed 8 × 256 × 1 and spread to 8 × 256 × 256 reads, at (b, r, s), the array at (b, r). -/
theorem spreadRows_apply {α : Type} (x : S8x256.Idx → α) (h1 : S8x256.ShapeCasts S8x256x1)
    (h2 : S8x256x1.Broadcasts S8x256x256) (b : Fin 8) (r s : Fin 256) :
    broadcastTo S8x256x256 (shapeCast S8x256x1 x h1) h2 (ix3 b r s) = x (ix2 b r) := by
  refine (broadcastTo_apply _ h2 (ix3 b r s) (ix3 b r (0 : Fin 1)) fun a => ?_).trans ?_
  · match a with
    | ⟨0, _⟩ => show b.val = if (8 : Nat) = 1 then 0 else b.val; rw [if_neg (by decide)]
    | ⟨1, _⟩ => show r.val = if (256 : Nat) = 1 then 0 else r.val; rw [if_neg (by decide)]
    | ⟨2, _⟩ => show 0 = if (1 : Nat) = 1 then 0 else s.val; rw [if_pos rfl]
  · refine shapeCast_apply x h1 (ix3 b r (0 : Fin 1)) (ix2 b r) ?_
    rw [Shape.rowMajor_val_two, Shape.rowMajor_val_three]
    show b.val * 256 + r.val = (b.val * 256 + r.val) * 1 + 0
    omega

/-- An 8 × 256 array viewed 8 × 1 × 256 and spread to 8 × 256 × 256 reads, at (b, r, s), the array at (b, s). -/
theorem spreadCols_apply {α : Type} (x : S8x256.Idx → α) (h1 : S8x256.ShapeCasts S8x1x256)
    (h2 : S8x1x256.Broadcasts S8x256x256) (b : Fin 8) (r s : Fin 256) :
    broadcastTo S8x256x256 (shapeCast S8x1x256 x h1) h2 (ix3 b r s) = x (ix2 b s) := by
  refine (broadcastTo_apply _ h2 (ix3 b r s) (ix3 b (0 : Fin 1) s) fun a => ?_).trans ?_
  · match a with
    | ⟨0, _⟩ => show b.val = if (8 : Nat) = 1 then 0 else b.val; rw [if_neg (by decide)]
    | ⟨1, _⟩ => show 0 = if (1 : Nat) = 1 then 0 else r.val; rw [if_pos rfl]
    | ⟨2, _⟩ => show s.val = if (256 : Nat) = 1 then 0 else s.val; rw [if_neg (by decide)]
  · refine shapeCast_apply x h1 (ix3 b (0 : Fin 1) s) (ix2 b s) ?_
    rw [Shape.rowMajor_val_two, Shape.rowMajor_val_three]
    show b.val * 256 + s.val = (b.val * 1 + 0) * 256 + s.val
    omega

/-! ## The matrix of inner products -/

/- Which coordinates of the two operands an entry (b, r, s) of the product reads at contraction coordinate q:
   the first operand at (b, r, q), the second at (b, s, q) — one equation per operand and axis. -/

theorem lhs_dot_0 (i : S8x256x256.Idx) (q : dot_S8x256x3_S8x256x3_S8x256x256_2_2_1_1_0_0.contr.Idx) :
    (dot_S8x256x3_S8x256x3_S8x256x256_2_2_1_1_0_0.lhsIdx i q 0).val = (i 0).val := by
  unfold DotDims.lhsIdx
  rw [dif_pos (show (0 : Fin S8x256x3.rank) ∈ dot_S8x256x3_S8x256x3_S8x256x256_2_2_1_1_0_0.lhsBatch by decide)]
  rfl
theorem lhs_dot_1 (i : S8x256x256.Idx) (q : dot_S8x256x3_S8x256x3_S8x256x256_2_2_1_1_0_0.contr.Idx) :
    (dot_S8x256x3_S8x256x3_S8x256x256_2_2_1_1_0_0.lhsIdx i q 1).val = (i 1).val := by
  unfold DotDims.lhsIdx
  rw [dif_neg (show ¬(1 : Fin S8x256x3.rank) ∈ dot_S8x256x3_S8x256x3_S8x256x256_2_2_1_1_0_0.lhsBatch by decide), dif_pos (show (1 : Fin S8x256x3.rank) ∈ dot_S8x256x3_S8x256x3_S8x256x256_2_2_1_1_0_0.lhsNonContracting by decide)]
  rfl
theorem lhs_dot_2 (i : S8x256x256.Idx) (q : dot_S8x256x3_S8x256x3_S8x256x256_2_2_1_1_0_0.contr.Idx) :
    (dot_S8x256x3_S8x256x3_S8x256x256_2_2_1_1_0_0.lhsIdx i q 2).val = (q ⟨0, by decide⟩).val :=
  dot_S8x256x3_S8x256x3_S8x256x256_2_2_1_1_0_0.lhsIdx_val_of_single rfl i q
theorem rhs_dot_0 (i : S8x256x256.Idx) (q : dot_S8x256x3_S8x256x3_S8x256x256_2_2_1_1_0_0.contr.Idx) :
    (dot_S8x256x3_S8x256x3_S8x256x256_2_2_1_1_0_0.rhsIdx i q 0).val = (i 0).val := by
  unfold DotDims.rhsIdx
  rw [dif_pos (show (0 : Fin S8x256x3.rank) ∈ dot_S8x256x3_S8x256x3_S8x256x256_2_2_1_1_0_0.rhsBatch by decide)]
  rfl
theorem rhs_dot_1 (i : S8x256x256.Idx) (q : dot_S8x256x3_S8x256x3_S8x256x256_2_2_1_1_0_0.contr.Idx) :
    (dot_S8x256x3_S8x256x3_S8x256x256_2_2_1_1_0_0.rhsIdx i q 1).val = (i 2).val := by
  unfold DotDims.rhsIdx
  rw [dif_neg (show ¬(1 : Fin S8x256x3.rank) ∈ dot_S8x256x3_S8x256x3_S8x256x256_2_2_1_1_0_0.rhsBatch by decide), dif_pos (show (1 : Fin S8x256x3.rank) ∈ dot_S8x256x3_S8x256x3_S8x256x256_2_2_1_1_0_0.rhsNonContracting by decide)]
  rfl
theorem rhs_dot_2 (i : S8x256x256.Idx) (q : dot_S8x256x3_S8x256x3_S8x256x256_2_2_1_1_0_0.contr.Idx) :
    (dot_S8x256x3_S8x256x3_S8x256x256_2_2_1_1_0_0.rhsIdx i q 2).val = (q ⟨0, by decide⟩).val :=
  dot_S8x256x3_S8x256x3_S8x256x256_2_2_1_1_0_0.rhsIdx_val_of_single rfl i q

/-- The batched product of an 8 × 256 × 3 array with another, contracted over the last axis, into zero: at (b, r, s)
    the inner product of row r of the first with row s of the second. -/
theorem innerProducts_apply {φ₁ φ₂ : FTy} (p : FVec Ideal S8x256x3 φ₁) (q : FVec Ideal S8x256x3 φ₂) (b : Fin 8) (r s : Fin 256) :
    matmul dot_S8x256x3_S8x256x3_S8x256x256_2_2_1_1_0_0 none p q (constant (F := Ideal) S8x256x256 .f32 0x00000000#32) (ix3 b r s)
      = ∑ k : Fin 3, p (ix3 b r k) * q (ix3 b s k) := by
  simp only [matmul]
  rw [Ideal.matmul_constant_zero_apply, ← Equiv.sum_comp (contrEquiv1 dot_S8x256x3_S8x256x3_S8x256x256_2_2_1_1_0_0 3 rfl rfl).symm]
  refine Finset.sum_congr rfl fun k _ => ?_
  have hk := contrEquiv1_symm_val dot_S8x256x3_S8x256x3_S8x256x256_2_2_1_1_0_0 3 rfl rfl k
  have el : dot_S8x256x3_S8x256x3_S8x256x256_2_2_1_1_0_0.lhsIdx (ix3 b r s) ((contrEquiv1 dot_S8x256x3_S8x256x3_S8x256x256_2_2_1_1_0_0 3 rfl rfl).symm k) = ix3 b r k := funext fun a => Fin.ext (by
    match a with
    | ⟨0, _⟩ => exact lhs_dot_0 _ _
    | ⟨1, _⟩ => exact lhs_dot_1 _ _
    | ⟨2, _⟩ => exact (lhs_dot_2 _ _).trans hk)
  have er : dot_S8x256x3_S8x256x3_S8x256x256_2_2_1_1_0_0.rhsIdx (ix3 b r s) ((contrEquiv1 dot_S8x256x3_S8x256x3_S8x256x256_2_2_1_1_0_0 3 rfl rfl).symm k) = ix3 b s k := funext fun a => Fin.ext (by
    match a with
    | ⟨0, _⟩ => exact rhs_dot_0 _ _
    | ⟨1, _⟩ => exact rhs_dot_1 _ _
    | ⟨2, _⟩ => exact (rhs_dot_2 _ _).trans hk)
  rw [el, er]

/-! ## The five values at an index -/

/-- the clamped squared distance between row r of block u and row s of block v, in batch entry b -/
def blockDist (u v : Vec Ideal S8x256x3 .f32) (b : Fin 8) (r s : Fin 256) : EReal :=
  max ((∑ k : Fin 3, u (ix3 b r k) * u (ix3 b r k) + ∑ k : Fin 3, v (ix3 b s k) * v (ix3 b s k)) - two * ∑ k : Fin 3, u (ix3 b r k) * v (ix3 b s k)) zero

/-- The table of clamped squared distances at (b, r, s). -/
theorem pay4_apply (u v : Vec Ideal S8x256x3 .f32) (b : Fin 8) (r s : Fin 256) :
    k0_pay4 (F := Ideal) u v (ix3 b r s) = blockDist u v b r s := by
  unfold k0_pay4 blockDist
  rw [maximumf_apply, subf_apply, addf_apply, mulf_apply, broadcast_apply, broadcast_apply, spreadRows_apply,
    spreadCols_apply, innerProducts_apply]
  refine congrArg₂ max (congrArg₂ (· - ·) (congrArg₂ (· + ·) ?_ ?_) rfl) rfl
  · exact laneSum_apply _ _ _ _ b r
  · exact laneSum_apply _ _ _ _ b s

/-- A lower bound of the new running row minimum at (b, r): of the old one, of +∞ and of every distance in the row. -/
theorem le_pay5_iff (u v : Vec Ideal S8x256x3 .f32) (acc : Vec Ideal S8x256 .f32) (b : Fin 8) (r : Fin 256) (z : EReal) :
    z ≤ k0_pay5 (F := Ideal) u v acc (ix2 b r) ↔ z ≤ acc (ix2 b r) ∧ z ≤ pinf ∧ ∀ s : Fin 256, z ≤ blockDist u v b r s := by
  unfold k0_pay5
  rw [shapeCast_self, minimumf_apply, le_min_iff]
  refine and_congr Iff.rfl ((le_rowMin_iff _ _ _ _ b r z).trans ?_)
  simp only [pay4_apply]

/-- A lower bound of the new running column minimum at (b, s): of the old one, of +∞ and of every entry of the column. -/
theorem le_pay1_iff (d : FVec Ideal S8x256x256 .f32) (acc : Vec Ideal S8x256 .f32) (b : Fin 8) (s : Fin 256) (z : EReal) :
    z ≤ k0_pay1 (F := Ideal) d acc (ix2 b s) ↔ z ≤ acc (ix2 b s) ∧ z ≤ pinf ∧ ∀ r : Fin 256, z ≤ d (ix3 b r s) := by
  unfold k0_pay1
  rw [shapeCast_self, minimumf_apply, le_min_iff]
  exact and_congr Iff.rfl (le_colMin_iff _ _ _ _ b s z)

/-- The initial column-minimum table is +∞ everywhere. -/
theorem pay2_apply (i : S8x4096.Idx) : k0_pay2 (F := Ideal) i = pinf := by
  unfold k0_pay2
  rw [shapeCast_self]
  rfl

/-- The initial row-minimum table is +∞ everywhere. -/
theorem pay3_apply (i : S8x256.Idx) : k0_pay3 (F := Ideal) i = pinf := by
  unfold k0_pay3
  rw [shapeCast_self]
  rfl

end Cert.KernelIdeal.Pay

end
-- ==== Proof.Tiles.lean ====
/-
  The column accumulator's partial store read at an index, and a tile's block distance as the clouds' distance.

  Point `t` of the 16 × 16 grid addresses the 256 columns `256 (t % 16) …` of the [8, 4096] column table: the block
  it reads there is the table at those columns, the table after its store is the stored block at those columns and the
  old table at every other column.  The distance between row r of its block of the first cloud and row s of its block
  of the second is the clamped squared distance between point `256 (t / 16) + r` of the first cloud and point
  `256 (t % 16) + s` of the second.  Last, a statement about all points below `256 (k + 1)` splits into the points
  below `256 k` and the 256 points of tile `k`.
-/
import proofs.«128334_j2602750181383_1_alg».proof.Proof.Pieces
import proofs.«128334_j2602750181383_1_alg».proof.Proof.Blocks
import proofs.«128334_j2602750181383_1_alg».proof.Proof.Payload
import proofs.«128334_j2602750181383_1_alg».proof.Proof.Dist
import Idealize.ShloMosaic.Lib.WritesUnit
import Idealize.ShloMosaic.Lib.ValueIdx

noncomputable section

namespace Cert.KernelIdeal.Tiles

open Cert.KernelIdeal Cert.KernelIdeal.Gen Cert.KernelIdeal.Pieces Cert.KernelIdeal.Blocks Cert.KernelIdeal.Pay Cert.Chamfer
  Idealize.ShloMosaic Idealize.ShloMosaic.ValueIdx Idealize.ShloMosaic.TcCoe Idealize.SL.Sem

variable {F : FTy → Type} [FloatOps F]

/-! ## The 256 columns a point addresses -/

/-- The block a point reads from the column table: at (b, s) the table at column `256 (t % 16) + s`. -/
theorem colBlock_apply (t : Fin cfg0.N) (X : Vec F S8x4096 .f32) (b : Fin 8) (s : Fin 256) (q : Fin 4096)
    (hq : q.val = t.val % 16 * 256 + s.val) : colBlock (grid0.coords t) X (ix2 b s) = X (ix2 b q) := by
  unfold colBlock
  show X _ = X _
  congr 1
  funext a
  apply Fin.ext
  have e := off1 t
  match a with
  | ⟨0, _⟩ =>
    show k0_off1 (grid0.coords t) 0 + 1 * b.val = b.val
    rw [e]
    show 0 + 1 * b.val = b.val
    omega
  | ⟨1, _⟩ =>
    show k0_off1 (grid0.coords t) 1 + 1 * s.val = q.val
    rw [e, hq]
    show t.val % 16 * 256 + 1 * s.val = t.val % 16 * 256 + s.val
    omega

/-- A table with the 256 columns from `o` replaced by a block reads the block at a column among them … -/
theorem store_hit (off : Fin 2 → ℕ) (o : ℕ) (e : off = ![0, o]) (w : Vec F S8x256 .f32) (X : Vec F S8x4096 .f32)
    (b : Fin 8) (s : Fin 256) (q : Fin 4096) (hq : q.val = o + s.val) :
    (if h : ∀ a, off a ≤ ((ix2 b q : S8x4096.Idx) a).val ∧ ((ix2 b q : S8x4096.Idx) a).val < off a + S8x256.size a then
        w (Rect.unitLocal (s := S8x4096) (off := off) (size := S8x256.size) (ix2 b q) h)
      else X (ix2 b q)) = w (ix2 b s) := by
  subst e
  have h : ∀ a, (![0, o] : Fin 2 → ℕ) a ≤ ((ix2 b q : S8x4096.Idx) a).val
      ∧ ((ix2 b q : S8x4096.Idx) a).val < (![0, o] : Fin 2 → ℕ) a + S8x256.size a :=
    Fin.forall_fin_two.mpr ⟨⟨Nat.zero_le _, by show b.val < 0 + 8; omega⟩,
      ⟨by show o ≤ q.val; omega, by show q.val < o + 256; omega⟩⟩
  rw [dif_pos h]
  congr 1
  funext a
  apply Fin.ext
  match a with
  | ⟨0, _⟩ => show b.val - 0 = b.val; omega
  | ⟨1, _⟩ => show q.val - o = s.val; omega

/-- … and the old table at a column of another tile. -/
theorem store_miss (off : Fin 2 → ℕ) (k : ℕ) (e : off = ![0, k * 256]) (w : Vec F S8x256 .f32) (X : Vec F S8x4096 .f32)
    (b : Fin 8) (q : Fin 4096) (hq : q.val / 256 ≠ k) :
    (if h : ∀ a, off a ≤ ((ix2 b q : S8x4096.Idx) a).val ∧ ((ix2 b q : S8x4096.Idx) a).val < off a + S8x256.size a then
        w (Rect.unitLocal (s := S8x4096) (off := off) (size := S8x256.size) (ix2 b q) h)
      else X (ix2 b q)) = X (ix2 b q) := by
  subst e
  rw [dif_neg]
  intro h
  have h1 : k * 256 ≤ q.val ∧ q.val < k * 256 + 256 := h 1
  omega

/-- The table after a point's store, at a column the point addresses: the stored block there. -/
theorem colStore_hit (t : Fin cfg0.N) (w : Vec F S8x256 .f32) (X : Vec F S8x4096 .f32) (b : Fin 8) (s : Fin 256)
    (q : Fin 4096) (hq : q.val = t.val % 16 * 256 + s.val) :
    colStore (grid0.coords t) w X (ix2 b q) = w (ix2 b s) := by
  unfold colStore
  exact store_hit (k0_off1 (grid0.coords t)) _ (off1 t) w X b s q hq

/-- The table after a point's store, at a column of another tile: the old table there. -/
theorem colStore_miss (t : Fin cfg0.N) (w : Vec F S8x256 .f32) (X : Vec F S8x4096 .f32) (b : Fin 8) (q : Fin 4096)
    (hq : q.val / 256 ≠ t.val % 16) : colStore (grid0.coords t) w X (ix2 b q) = X (ix2 b q) := by
  unfold colStore
  exact store_miss (k0_off1 (grid0.coords t)) _ (off1 t) w X b q hq

/-! ## A tile's distances are the clouds' -/

/-- Row r of the point's block of the first cloud is point `256 (t / 16) + r` of that cloud, row s of its block of the
    second is point `256 (t % 16) + s` of the second: their block distance is the clouds' distance there. -/
theorem blockDist_eq (m : (ℓ : Loc nD τ sig) → Buf (Elt Ideal) ℓ) (c : Dev nD) (t : Fin cfg0.N) (b : Fin 8)
    (r s : Fin 256) (p q : Fin 4096) (hp : p.val = t.val / 16 * 256 + r.val) (hq : q.val = t.val % 16 * 256 + s.val) :
    blockDist (xblk m c t) (yblk m c t) b r s = dist (xarr m c) (yarr m c) b p q := by
  unfold blockDist Cert.Chamfer.dist Cert.Chamfer.sq Cert.Chamfer.dot
  have ex : ∀ k : Fin 3, xblk m c t (ix3 b r k) = xarr m c (ix3 b p k) := fun k => xblk_apply m c t b r k p hp
  have ey : ∀ k : Fin 3, yblk m c t (ix3 b s k) = yarr m c (ix3 b q k) := fun k => yblk_apply m c t b s k q hq
  simp only [ex, ey]

/-! ## The points below `256 (k + 1)`: those below `256 k`, and tile `k` -/

theorem forall_lt_succ_tile (k : ℕ) (hk : k < 16) (P : Fin 4096 → Prop) :
    (∀ q : Fin 4096, q.val < (k + 1) * 256 → P q)
      ↔ ((∀ q : Fin 4096, q.val < k * 256 → P q) ∧ ∀ (s : Fin 256) (q : Fin 4096), q.val = k * 256 + s.val → P q) := by
  constructor
  · intro H
    exact ⟨fun q hq => H q (by omega), fun s q hq => H q (by have := s.isLt; omega)⟩
  · rintro ⟨H1, H2⟩ q hq
    by_cases h : q.val < k * 256
    · exact H1 q h
    · exact H2 ⟨q.val - k * 256, by omega⟩ q (by show q.val = k * 256 + (q.val - k * 256); omega)

theorem forall_tile (k : ℕ) (hk : k < 16) (P : Fin 4096 → Prop) :
    (∀ (s : Fin 256) (q : Fin 4096), q.val = k * 256 + s.val → P q) ↔ ∀ q : Fin 4096, q.val / 256 = k → P q := by
  constructor
  · intro H q hq
    exact H ⟨q.val % 256, Nat.mod_lt _ (by decide)⟩ q (by show q.val = k * 256 + q.val % 256; omega)
  · intro H s q hq
    exact H q (by have := s.isLt; omega)

end Cert.KernelIdeal.Tiles

end
-- ==== Proof.Invariant.lean ====
/-
  The two running minima, point by point.

  Point `n` of the 16 × 16 grid is row tile `n / 16` of the cloud `x` against row tile `n % 16` of the cloud `y`.
  After it, entry `(b, r)` of the row accumulator is the least clamped squared distance from point `256 (n / 16) + r`
  of `x` to the points of `y` in the tiles `0 … n % 16`; and entry `(b, q)` of the column accumulator is the least
  distance from point `q` of `y` to the points of `x` in the row tiles already swept against `q`'s tile: every
  tile before `n / 16`, and tile `n / 16` itself once `q`'s tile is at most `n % 16`.  Both are stated through their
  lower bounds (`z ≤ min … ↔ z ≤ each`), which is all a minimum over a linear order is; by induction on the point.
  When a sweep ends (`n % 16 = 15`) the row accumulator is the row's entry of `nearX`; after the last point the column
  accumulator is `nearY`.
-/
import proofs.«128334_j2602750181383_1_alg».proof.Proof.Steps
import proofs.«128334_j2602750181383_1_alg».proof.Proof.Tiles

noncomputable section

namespace Cert.KernelIdeal.Inv

open Cert.KernelIdeal Cert.KernelIdeal.Gen Cert.KernelIdeal.Pieces Cert.KernelIdeal.Blocks Cert.KernelIdeal.Steps
  Cert.KernelIdeal.Tiles Cert.KernelIdeal.Pay Cert.Chamfer Idealize.ShloMosaic Idealize.ShloMosaic.ValueIdx
  Idealize.ShloMosaic.TcCoe Idealize.SL.Sem

variable (m : (ℓ : Loc nD τ sig) → Buf (Elt Ideal) ℓ)

/-- A lower bound of the row accumulator met with a tile's row minima: a lower bound of the accumulator, of +∞, and of
    the distances from the row's point to every point of the tile of `y`. -/
theorem row_le (c : Dev nD) (t : Fin cfg0.N) (acc : Vec Ideal S8x256 .f32) (b : Fin 8) (r : Fin 256) (p : Fin 4096)
    (hp : p.val = t.val / 16 * 256 + r.val) (z : EReal) :
    z ≤ k0_pay5 (F := Ideal) (xblk m c t) (yblk m c t) acc (ix2 b r) ↔
      (z ≤ acc (ix2 b r) ∧ z ≤ pinf ∧
        ∀ q : Fin 4096, q.val / 256 = t.val % 16 → z ≤ Cert.Chamfer.dist (xarr m c) (yarr m c) b p q) := by
  rw [le_pay5_iff]
  have hk : t.val % 16 < 16 := Nat.mod_lt _ (by decide)
  refine and_congr Iff.rfl (and_congr Iff.rfl ?_)
  rw [← forall_tile (t.val % 16) hk (fun q => z ≤ Cert.Chamfer.dist (xarr m c) (yarr m c) b p q)]
  constructor
  · intro h s q hq
    rw [← blockDist_eq m c t b r s p q hp hq]
    exact h s
  · intro h s
    have hq : t.val % 16 * 256 + s.val < 4096 := by have := s.isLt; omega
    rw [blockDist_eq m c t b r s p ⟨_, hq⟩ hp rfl]
    exact h s ⟨_, hq⟩ rfl

/-- A lower bound of the column accumulator after a point's store: a lower bound of what was there, and, on the
    columns of the point's tile of `y`, also of +∞ and of the distances to every point of the point's tile of `x`. -/
theorem col_le (c : Dev nD) (t : Fin cfg0.N) (prev : Vec Ideal S8x4096 .f32) (b : Fin 8) (q : Fin 4096) (z : EReal) :
    z ≤ colStore (grid0.coords t)
          (k0_pay1 (F := Ideal) (k0_pay4 (xblk m c t) (yblk m c t)) (colBlock (grid0.coords t) prev)) prev (ix2 b q) ↔
      (z ≤ prev (ix2 b q) ∧ (q.val / 256 = t.val % 16 → z ≤ pinf ∧
        ∀ p : Fin 4096, p.val / 256 = t.val / 16 → z ≤ Cert.Chamfer.dist (xarr m c) (yarr m c) b p q)) := by
  have hN : t.val < 256 := lt_of_lt_of_eq t.isLt (show cfg0.N = 256 from N_0)
  by_cases hk : q.val / 256 = t.val % 16
  · have hs : q.val - t.val % 16 * 256 < 256 := by have := q.isLt; omega
    have hq : q.val = t.val % 16 * 256 + (⟨_, hs⟩ : Fin 256).val := by
      show q.val = t.val % 16 * 256 + (q.val - t.val % 16 * 256); omega
    rw [colStore_hit t _ prev b ⟨_, hs⟩ q hq, le_pay1_iff, colBlock_apply t prev b ⟨_, hs⟩ q hq]
    refine and_congr Iff.rfl ?_
    constructor
    · intro h _
      refine ⟨h.1, ?_⟩
      rw [← forall_tile (t.val / 16) (by omega) (fun p => z ≤ Cert.Chamfer.dist (xarr m c) (yarr m c) b p q)]
      intro r p hp
      rw [← blockDist_eq m c t b r ⟨_, hs⟩ p q hp hq, ← pay4_apply]
      exact h.2 r
    · intro h
      obtain ⟨h1, h2⟩ := h hk
      refine ⟨h1, fun r => ?_⟩
      have hp : t.val / 16 * 256 + r.val < 4096 := by have := r.isLt; omega
      rw [pay4_apply, blockDist_eq m c t b r ⟨_, hs⟩ ⟨_, hp⟩ q rfl hq]
      exact h2 ⟨_, hp⟩ (by show (t.val / 16 * 256 + r.val) / 256 = t.val / 16; have := r.isLt; omega)
  · rw [colStore_miss t _ prev b q hk]
    exact ⟨fun h => ⟨h, fun h' => absurd h' hk⟩, fun h => h.1⟩

/-- After point `n`: the row accumulator bounds from below exactly what +∞ and the distances to the tiles `0 … n % 16` of
    `y` bound. -/
def RowInv (c : Dev nD) (n : ℕ) (h : n < cfg0.N) : Prop :=
  ∀ (b : Fin 8) (r : Fin 256) (p : Fin 4096), p.val = n / 16 * 256 + r.val → ∀ z : EReal,
    z ≤ (outsAt0 m c n h).2.2.1 (ix2 b r) ↔
      (z ≤ pinf ∧ ∀ q : Fin 4096, q.val / 256 ≤ n % 16 → z ≤ Cert.Chamfer.dist (xarr m c) (yarr m c) b p q)

/-- After point `n`: the column accumulator bounds from below exactly what +∞ and the distances to the tiles of `x` already
    swept against the column's tile bound. -/
def ColInv (c : Dev nD) (n : ℕ) (h : n < cfg0.N) : Prop :=
  ∀ (b : Fin 8) (q : Fin 4096) (z : EReal),
    z ≤ (outsAt0 m c n h).2.2.2 (ix2 b q) ↔
      (z ≤ pinf ∧ ∀ p : Fin 4096, (p.val / 256 < n / 16 ∨ (p.val / 256 = n / 16 ∧ q.val / 256 ≤ n % 16)) →
        z ≤ Cert.Chamfer.dist (xarr m c) (yarr m c) b p q)

/-- The first point. -/
theorem inv_zero (c : Dev nD) (h : 0 < cfg0.N) : RowInv m c 0 h ∧ ColInv m c 0 h := by
  constructor
  · intro b r p hp z
    have e := row_first m c ⟨0, h⟩ rfl
    rw [show (outsAt0 m c 0 h).2.2.1 = _ from e, row_le m c ⟨0, h⟩ (k0_pay3 (F := Ideal)) b r p hp z, pay3_apply]
    constructor
    · rintro ⟨h1, -, h3⟩
      exact ⟨h1, fun q hq => h3 q (by show q.val / 256 = 0 % 16; omega)⟩
    · rintro ⟨h1, h3⟩
      exact ⟨h1, h1, fun q hq => h3 q (by have : q.val / 256 = 0 % 16 := hq; omega)⟩
  · intro b q z
    have e := col_first m c ⟨0, h⟩ rfl
    rw [show (outsAt0 m c 0 h).2.2.2 = _ from e, col_le m c ⟨0, h⟩ (k0_pay2 (F := Ideal)) b q z, pay2_apply]
    constructor
    · rintro ⟨h1, h2⟩
      refine ⟨h1, fun p hp => ?_⟩
      have hq : q.val / 256 = (⟨0, h⟩ : Fin cfg0.N).val % 16 := by show q.val / 256 = 0 % 16; omega
      exact (h2 hq).2 p (by show p.val / 256 = 0 / 16; omega)
    · rintro ⟨h1, h2⟩
      refine ⟨h1, fun hq => ⟨h1, fun p hp => h2 p ?_⟩⟩
      have hq' : q.val / 256 = 0 % 16 := hq
      have hp' : p.val / 256 = 0 / 16 := hp
      omega

/-- A later point, from the point before. -/
theorem inv_step (c : Dev nD) (n : ℕ) (h : n < cfg0.N) (hn : n ≠ 0)
    (ih : RowInv m c (n - 1) (Nat.lt_of_le_of_lt (Nat.sub_le _ _) h) ∧ ColInv m c (n - 1) (Nat.lt_of_le_of_lt (Nat.sub_le _ _) h)) :
    RowInv m c n h ∧ ColInv m c n h := by
  have hN : n < 256 := lt_of_lt_of_eq h (show cfg0.N = 256 from N_0)
  constructor
  · intro b r p hp z
    by_cases h1 : n % 16 = 0
    · have e := row_first m c ⟨n, h⟩ h1
      rw [show (outsAt0 m c n h).2.2.1 = _ from e, row_le m c ⟨n, h⟩ (k0_pay3 (F := Ideal)) b r p hp z, pay3_apply]
      constructor
      · rintro ⟨a1, -, a3⟩
        exact ⟨a1, fun q hq => a3 q (by show q.val / 256 = n % 16; omega)⟩
      · rintro ⟨a1, a3⟩
        exact ⟨a1, a1, fun q hq => a3 q (by have : q.val / 256 = n % 16 := hq; omega)⟩
    · have e := row_next m c ⟨n, h⟩ h1
      rw [show (outsAt0 m c n h).2.2.1 = _ from e, row_le m c ⟨n, h⟩ (prevRow m c ⟨n, h⟩) b r p hp z]
      have hp' : p.val = (n - 1) / 16 * 256 + r.val := by rw [hp]; omega
      have ihr := ih.1 b r p hp' z
      rw [show (z ≤ prevRow m c ⟨n, h⟩ (ix2 b r)) ↔ _ from ihr]
      constructor
      · rintro ⟨⟨a1, a2⟩, -, a3⟩
        refine ⟨a1, fun q hq => ?_⟩
        by_cases hq' : q.val / 256 = n % 16
        · exact a3 q hq'
        · exact a2 q (by omega)
      · rintro ⟨a1, a3⟩
        exact ⟨⟨a1, fun q hq => a3 q (by omega)⟩, a1, fun q hq => a3 q (by have : q.val / 256 = n % 16 := hq; omega)⟩
  · intro b q z
    have e := col_next m c ⟨n, h⟩ hn
    rw [show (outsAt0 m c n h).2.2.2 = _ from e, col_le m c ⟨n, h⟩ (prevCol m c ⟨n, h⟩) b q z]
    have ihc := ih.2 b q z
    rw [show (z ≤ prevCol m c ⟨n, h⟩ (ix2 b q)) ↔ _ from ihc]
    have hq4 : q.val < 4096 := q.isLt
    constructor
    · rintro ⟨⟨a1, a2⟩, a3⟩
      refine ⟨a1, fun p hp => ?_⟩
      by_cases hk : q.val / 256 = n % 16 ∧ p.val / 256 = n / 16
      · exact (a3 hk.1).2 p hk.2
      · exact a2 p (by omega)
    · rintro ⟨a1, a3⟩
      refine ⟨⟨a1, fun p hp => a3 p (by omega)⟩, fun hk => ⟨a1, fun p hp => a3 p ?_⟩⟩
      have hk' : q.val / 256 = n % 16 := hk
      have hp' : p.val / 256 = n / 16 := hp
      omega

/-- Both hold after every point. -/
theorem inv (c : Dev nD) : ∀ (n : ℕ) (h : n < cfg0.N), RowInv m c n h ∧ ColInv m c n h
  | 0, h => inv_zero m c h
  | n + 1, h => inv_step m c (n + 1) h (Nat.succ_ne_zero n) (inv c n (Nat.lt_of_succ_lt h))

/-- When a sweep over the column tiles ends, the row accumulator holds its rows' entries of `nearX`. -/
theorem rowNow_eq (c : Dev nD) (t : Fin cfg0.N) (h : t.val % 16 = 15) (b : Fin 8) (r : Fin 256) (p : Fin 4096)
    (hp : p.val = t.val / 16 * 256 + r.val) :
    rowNow m c t (ix2 b r) = nearX (xarr m c) (yarr m c) (ix2 b p) := by
  refine eq_of_forall_le_iff fun z => ?_
  rw [le_nearX_iff]
  refine ((inv m c t.val t.isLt).1 b r p hp z).trans (and_congr Iff.rfl ?_)
  constructor
  · intro a q; exact a q (by have := q.isLt; omega)
  · intro a q _; exact a q

/-- After the last point the column accumulator is `nearY`. -/
theorem colNow_eq (c : Dev nD) (t : Fin cfg0.N) (h : t.val = 255) :
    colNow m c t = nearY (xarr m c) (yarr m c) := by
  funext y
  obtain ⟨b, q, rfl⟩ : ∃ (b : Fin 8) (q : Fin 4096), y = ix2 b q := ⟨y 0, y 1, eq_ix2 y⟩
  refine eq_of_forall_le_iff fun z => ?_
  rw [le_nearY_iff]
  refine ((inv m c t.val t.isLt).2 b q z).trans (and_congr Iff.rfl ?_)
  constructor
  · intro a p; exact a p (by have := p.isLt; have := q.isLt; omega)
  · intro a p _; exact a p

end Cert.KernelIdeal.Inv

end
-- ==== Proof.Final.lean ====
/-
  The two result arrays after the run are the specification's nearest-neighbour tables.

  The row-minima array is written back one [8, 256] block per row tile, at the end of each sweep over the column tiles
  (points `t` with `t % 16 = 15`; block `t / 16`); each block is its rows' entries of `nearX`, and the sixteen blocks
  tile the array.  The column-minima array is written back once, whole, at the last point, and is `nearY`.
-/
import proofs.«128334_j2602750181383_1_alg».proof.Proof.Invariant
import Idealize.ShloMosaic.Lib.Pipeline.Value

noncomputable section

namespace Cert.KernelIdeal.Final

open Cert.KernelIdeal Cert.KernelIdeal.Gen Cert.KernelIdeal.Blocks Cert.KernelIdeal.Steps Cert.KernelIdeal.Inv Cert.Chamfer
  Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The block indices of the two output windows over the grid: row tile `t / 16` of the row-minima array, and the one
    block of the column-minima array. -/
theorem idx2 : ∀ t : Fin cfg0.N, win0_2.index t 0 = 0 ∧ win0_2.index t 1 = t.val / 16 :=
  (by decide +kernel : ∀ t : Fin grid0.N, win0_2.index t 0 = 0 ∧ win0_2.index t 1 = t.val / 16)
theorem idx3 : ∀ t : Fin cfg0.N, win0_3.index t 0 = 0 ∧ win0_3.index t 1 = 0 :=
  (by decide +kernel : ∀ t : Fin grid0.N, win0_3.index t 0 = 0 ∧ win0_3.index t 1 = 0)

/-- What a point that ends a sweep writes back is its block of `nearX`. -/
theorem flushed2_eq (c : Dev nD) (t : Fin cfg0.N) (hf : (cfg0.win 2).flush t = true) :
    (dats m 0 c).flushed 2 t = ((cfg0.win 2).blk t).view.read (Elt Ideal) (nearX (xarr m c) (yarr m c)) := by
  have hN : t.val < 256 := lt_of_lt_of_eq t.isLt (show cfg0.N = 256 from N_0)
  have h : t.val % 16 = 15 := (flush0_2 t).mp hf
  show (cfg0.win 2).cut (grid0.coords t) ((dats m 0 c).after 2 t) = _
  rw [after0_2, Steps.rowOut m c t h]
  funext y
  obtain ⟨b, r, rfl⟩ : ∃ (b : Fin 8) (r : Fin 256), (y : S8x256.Idx) = ix2 b r := ⟨y 0, y 1, eq_ix2 y⟩
  rw [View.read_apply]
  obtain ⟨p, hp⟩ : ∃ p : Fin 4096, p.val = t.val / 16 * 256 + r.val :=
    ⟨⟨t.val / 16 * 256 + r.val, by have := r.isLt; omega⟩, rfl⟩
  refine (rowNow_eq m c t h b r p hp).trans ?_
  show nearX (xarr m c) (yarr m c) _ = nearX (xarr m c) (yarr m c) _
  congr 1
  funext a
  apply Fin.ext
  obtain ⟨h0, h1⟩ := idx2 t
  match a with
  | ⟨0, _⟩ => show b.val = win0_2.index t 0 * 8 + 1 * b.val; rw [h0]; omega
  | ⟨1, _⟩ => show p.val = win0_2.index t 1 * 256 + 1 * r.val; rw [h1, hp]; omega

/-- What the last point writes back is the whole of `nearY`. -/
theorem flushed3_eq (c : Dev nD) (t : Fin cfg0.N) (hf : (cfg0.win 3).flush t = true) :
    (dats m 0 c).flushed 3 t = ((cfg0.win 3).blk t).view.read (Elt Ideal) (nearY (xarr m c) (yarr m c)) := by
  have hN : t.val < 256 := lt_of_lt_of_eq t.isLt (show cfg0.N = 256 from N_0)
  have h : t.val = 255 := by have := (flush0_3 t).mp hf; omega
  show (cfg0.win 3).cut (grid0.coords t) ((dats m 0 c).after 3 t) = _
  rw [after0_3, Steps.colOut m c t h, colNow_eq m c t h]
  funext y
  obtain ⟨b, q, rfl⟩ : ∃ (b : Fin 8) (q : Fin 4096), (y : S8x4096.Idx) = ix2 b q := ⟨y 0, y 1, eq_ix2 y⟩
  rw [View.read_apply]
  show nearY (xarr m c) (yarr m c) _ = nearY (xarr m c) (yarr m c) _
  congr 1
  funext a
  apply Fin.ext
  obtain ⟨h0, h1⟩ := idx3 t
  match a with
  | ⟨0, _⟩ => show b.val = win0_3.index t 0 * 8 + 1 * b.val; rw [h0]; omega
  | ⟨1, _⟩ => show q.val = win0_3.index t 1 * 4096 + 1 * q.val; rw [h1]; omega

/-- An entry of an output array is in point `t`'s block iff each coordinate is in the block's range on its axis. -/
theorem mem_blk2 (t : Fin cfg0.N) (i : S8x4096.Idx) :
    i ∈ ((cfg0.win 2).blk t).view.set ↔ ∀ a : Fin 2, win0_2.index t a * S8x256.size a ≤ (i a).val ∧ (i a).val < win0_2.index t a * S8x256.size a + S8x256.size a := by
  show i ∈ ((View.whole main_v0_0).slice (win0_2.rect t)).set ↔ _
  rw [View.set_slice_whole, Rect.mem_set_unit]
  exact Iff.rfl

theorem mem_blk3 (t : Fin cfg0.N) (i : S8x4096.Idx) :
    i ∈ ((cfg0.win 3).blk t).view.set ↔ ∀ a : Fin 2, win0_3.index t a * S8x4096.size a ≤ (i a).val ∧ (i a).val < win0_3.index t a * S8x4096.size a + S8x4096.size a := by
  show i ∈ ((View.whole main_v0_1).slice (win0_3.rect t)).set ↔ _
  rw [View.set_slice_whole, Rect.mem_set_unit]
  exact Iff.rfl

/-- Row `p` of the row-minima array is in the block written back when row tile `p / 256`'s sweep ends. -/
theorem cover2 (i : S8x4096.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hN : cfg0.N = 256 := N_0
  let t : Fin cfg0.N := ⟨16 * ((i 1).val / 256) + 15, by rw [hN]; omega⟩
  have ht : t.val = 16 * ((i 1).val / 256) + 15 := rfl
  refine ⟨t, (flush0_2 t).mpr (by rw [ht]; omega), ?_⟩
  rw [mem_blk2]
  obtain ⟨h0, h1⟩ := idx2 t
  intro a
  match a with
  | ⟨0, _⟩ => show win0_2.index t 0 * 8 ≤ (i 0).val ∧ (i 0).val < win0_2.index t 0 * 8 + 8; rw [h0]; omega
  | ⟨1, _⟩ => show win0_2.index t 1 * 256 ≤ (i 1).val ∧ (i 1).val < win0_2.index t 1 * 256 + 256; rw [h1, ht]; omega

/-- Every entry of the column-minima array is in the one block, written back at the last point. -/
theorem cover3 (i : S8x4096.Idx) : ∃ t : Fin cfg0.N, (cfg0.win 3).flush t = true ∧ i ∈ ((cfg0.win 3).blk t).view.set := by
  have hi0 : (i 0).val < 8 := (i 0).isLt
  have hi1 : (i 1).val < 4096 := (i 1).isLt
  have hN : cfg0.N = 256 := N_0
  let t : Fin cfg0.N := ⟨255, by rw [hN]; omega⟩
  have ht : t.val = 255 := rfl
  refine ⟨t, (flush0_3 t).mpr (by rw [ht]), ?_⟩
  rw [mem_blk3]
  obtain ⟨h0, h1⟩ := idx3 t
  intro a
  match a with
  | ⟨0, _⟩ => show win0_3.index t 0 * 8 ≤ (i 0).val ∧ (i 0).val < win0_3.index t 0 * 8 + 8; rw [h0]; omega
  | ⟨1, _⟩ => show win0_3.index t 1 * 4096 ≤ (i 1).val ∧ (i 1).val < win0_3.index t 1 * 4096 + 4096; rw [h1]; omega

/-- The row-minima array after the run is `nearX` of the two clouds. -/
theorem final2 (c : Dev nD) : (dats m 0 c).arrAt 2 cfg0.N = nearX (xarr m c) (yarr m c) :=
  (dats m 0 c).arrAt_eq_of_cover 2 (nearX (xarr m c) (yarr m c)) (flushed2_eq m c) fun i => cover2 i

/-- The column-minima array after the run is `nearY` of the two clouds. -/
theorem final3 (c : Dev nD) : (dats m 0 c).arrAt 3 cfg0.N = nearY (xarr m c) (yarr m c) :=
  (dats m 0 c).arrAt_eq_of_cover 3 (nearY (xarr m c) (yarr m c)) (flushed3_eq m c) fun i => cover3 i

end Cert.KernelIdeal.Final

end
-- ==== Proof.Loss.lean ====
/-
  What both programs do with the two nearest-neighbour tables: the mean over all 8 · 4096 entries of the first table
  weighted entrywise by the mask (read as an [8, 4096] table), plus the mean of the second table.  Each mean is the sum
  from 0 divided by 32768.
-/
import Idealize.ShloMosaic.PureOps
import Idealize.ShloMosaic.Lib.StableHlo

noncomputable section

namespace Cert.Chamfer

open Idealize.ShloMosaic

abbrev TblS : Shape := ⟨2, ![8, 4096]⟩
abbrev MaskS : Shape := ⟨5, ![2, 4, 1, 64, 64]⟩
abbrev Scal : Shape := ⟨0, ![]⟩

/-- The masked mean of the first table plus the mean of the second, as the host operations spell it. -/
def loss {F : FTy → Type} [FloatOps F] (hc : MaskS.ShapeCasts TblS) (hr : TblS.ReducesTo [0, 1] Scal) (hs : 0 < Scal.numel)
    (cx cy : TblS.Idx → F .f32) (mask : MaskS.Idx → F .f32) : Scal.Idx → F .f32 :=
  addf
    (Host.divf (Host.reduceAdd (mulf cx (shapeCast TblS mask hc)) (constant Scal .f32 0x00000000#32) hr hs)
      (constant Scal .f32 0x47000000#32))
    (Host.divf (Host.reduceAdd cy (constant Scal .f32 0x00000000#32) hr hs) (constant Scal .f32 0x47000000#32))

end Cert.Chamfer

end
-- ==== Proof.KernelRun.lean ====
/-
  The kernel's whole run, read: after the 256 grid points the two result arrays hold `nearX` and `nearY` of the clouds,
  and the host lines after the region compute the common loss term of them and the mask.
-/
import proofs.«128334_j2602750181383_1_alg».proof.Proof.Final
import proofs.«128334_j2602750181383_1_alg».proof.Proof.Loss
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Blocks Cert.Chamfer

/-- The host lines after the region, at any float instance: the loss term of the two result arrays and the mask. -/
theorem tail_v7 {F : FTy → Type} [FloatOps F] (m : (ℓ : Loc nD τ sig) → Buf (Elt F) ℓ) (c : Dev nD) :
    Pipeline.afterTail₀ cfgs (dats m) 0 (V0 m) [hostOps1] c main_v7
      = loss shapeCasts_S2x4x1x64x64_S8x4096 reducesTo_S8x4096_S_d0_1 h_S_ ((dats m 0 c).arrAt 2 cfg0.N)
          ((dats m 0 c).arrAt 3 cfg0.N) (m ((c : Thread nD τ).loc main_arg2)) := by
  unfold Pipeline.afterTail₀
  show StableHlo.after hostOps1 _ (Proc.devRef .tc main_v7) = _
  after_results
  rw [Pipeline.withArrays_arr spec0 launch0.win.arr_inj c _ _ 2, Pipeline.withArrays_arr spec0 launch0.win.arr_inj c _ _ 3,
    Pipeline.withArrays_of_ne _ c (V0 m c) _ main_arg2 (by exact (by decide : ∀ w, Pipeline.arrRef spec0 w ≠ main_arg2))]
  rfl

variable (m : (ℓ : Loc nD τ sig) → Buf (Elt Ideal) ℓ) (ρ : Dev nD → PrngReg)

/-- Every weakly fair execution ends with the result at the loss term of `nearX` and `nearY` of the argument clouds
    and the mask, the arguments unchanged. -/
theorem run : θ_run defs (onTc (τ := τ) (main (F := Ideal))) ⟨m, fun _ => 0, ρ⟩ fun r => ∀ c : Dev nD,
      r.2.mem ((c.tc : Thread nD τ).loc main_v7)
        = loss (F := Ideal) shapeCasts_S2x4x1x64x64_S8x4096 reducesTo_S8x4096_S_d0_1 h_S_
            (nearX (m ((c.tc : Thread nD τ).loc main_arg1)) (m ((c.tc : Thread nD τ).loc main_arg0)))
            (nearY (m ((c.tc : Thread nD τ).loc main_arg1)) (m ((c.tc : Thread nD τ).loc main_arg0)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v7 (Pipeline.mem_restRefs_of main_v7 (by decide) (by decide))).trans
        ((tail_v7 m c).trans (by rw [Cert.KernelIdeal.Final.final2 m c, Cert.KernelIdeal.Final.final3 m c]; rfl)),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.Run

end
-- ==== Proof.RefNear.lean ====
/-
  The reference program's distance stage and its two minimum-reductions, read against the specification.

  Stage 14 of the reference, at an index (b, p, q), is the clamped squared distance between point p of the cloud x
  (argument 1) and point q of the cloud y (argument 0) in batch entry b:
      max ((|x_p|² + |y_q|²) − 2 · ⟨x_p, y_q⟩) 0.
  Stage 15 folds min over q from +∞ and stage 16 folds min over p from +∞, so they are the two nearest-neighbour
  tables of the specification.
-/
import proofs.«128334_j2602750181383_1_alg».proof.Proof.Gen.ReferenceIdeal.Read
import proofs.«128334_j2602750181383_1_alg».proof.Proof.Dist
import Idealize.ShloMosaic.PureOps.Reduce
import Idealize.ShloMosaic.PureOps.Ideal.Laws
import Idealize.ShloMosaic.Lib.ValueIdx

noncomputable section

namespace Cert.ReferenceIdeal.RefNear

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Stage 14 at (b, p, q) is the clamped squared distance between point p of x and point q of y in batch entry b. -/
theorem stage14_apply (x0 x1 : (⟨S8x4096x3, .f32⟩ : BufTy).Contents (Elt Ideal)) (j : S8x4096x4096.Idx) :
    Cert.ReferenceIdeal.Read.val_main_v14 (F := Ideal) x0 x1 j = Cert.Chamfer.dist x1 x0 (j 0) (j 1) (j 2) := by
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply,
    val_main_v13_apply, val_main_cst_apply, val_main_cst_0_apply, val_main_cst_1_apply, val_main_cst_2_apply]
  -- the operand indices, by coordinates
  have e1 : ∀ k : Fin 3, idx_main_v1 (idx_main_v5 (idx_main_v7 j)) k = ix3 (n0 := 8) (n1 := 4096) (n2 := 3) (j 0) (j 1) k := fun k =>
    funext fun a => Fin.ext (by match a with | ⟨0, _⟩ => rfl | ⟨1, _⟩ => rfl | ⟨2, _⟩ => rfl)
  have e2 : ∀ k : Fin 3, idx_main_v3 (idx_main_v6 (idx_main_v8 j)) k = ix3 (n0 := 8) (n1 := 4096) (n2 := 3) (j 0) (j 2) k := fun k =>
    funext fun a => Fin.ext (by match a with | ⟨0, _⟩ => rfl | ⟨1, _⟩ => rfl | ⟨2, _⟩ => rfl)
  have e3 : ∀ k : Fin 3, lidx_main_v4 j k = ix3 (n0 := 8) (n1 := 4096) (n2 := 3) (j 0) (j 1) k := fun k =>
    funext fun a => Fin.ext (by match a with | ⟨0, _⟩ => rfl | ⟨1, _⟩ => rfl | ⟨2, _⟩ => rfl)
  have e4 : ∀ k : Fin 3, ridx_main_v4 j k = ix3 (n0 := 8) (n1 := 4096) (n2 := 3) (j 0) (j 2) k := fun k =>
    funext fun a => Fin.ext (by match a with | ⟨0, _⟩ => rfl | ⟨1, _⟩ => rfl | ⟨2, _⟩ => rfl)
  have v0 : ∀ i, val_main_v0 (F := Ideal) x1 i = x1 i * x1 i := fun _ => rfl
  have v2 : ∀ i, val_main_v2 (F := Ideal) x0 i = x0 i * x0 i := fun _ => rfl
  simp only [e1, e2, e3, e4, v0, v2, Ideal.maximumf_def, Ideal.subf_def, Ideal.addf_def,
    Ideal.mulf_def, Ideal.ofBits_def, Ideal.ofBits_zero_f32, zero_add, Cert.Chamfer.dist, Cert.Chamfer.sq,
    Cert.Chamfer.dot, Cert.Chamfer.zero, Cert.Chamfer.two]

/-- Stage 15 is the table of least distances from each point of x to the cloud y. -/
theorem stage15_eq (x0 x1 : (⟨S8x4096x3, .f32⟩ : BufTy).Contents (Elt Ideal)) :
    Cert.ReferenceIdeal.Read.val_main_v15 (F := Ideal) x0 x1 = Cert.Chamfer.nearX x1 x0 := by
  funext i
  have h : S8x4096x4096.Reduces [2] S8x4096 := by decide
  unfold val_main_v15
  refine (Host.reduce_eq_fold_single (FloatOps.minimumf (F := Ideal) (φ := .f32)) (val_main_v14 (F := Ideal) x0 x1)
    (val_main_cst_3 (F := Ideal)) reducesTo_S8x4096x4096_S8x4096_d2 h h_S_ i).trans ?_
  rw [val_main_cst_3_apply, Ideal.ofBits_def]
  unfold Cert.Chamfer.nearX
  show (Finset.univ : Finset (Fin 4096)).fold min Cert.Chamfer.pinf (val_main_v14 (F := Ideal) x0 x1 ∘ h.lift i) = _
  refine Finset.fold_congr fun q _ => ?_
  have hl : h.lift i q = ix3 (n0 := 8) (n1 := 4096) (n2 := 4096) (i 0) (i 1) q :=
    funext fun a => Fin.ext (by match a with | ⟨0, _⟩ => rfl | ⟨1, _⟩ => rfl | ⟨2, _⟩ => rfl)
  show val_main_v14 (F := Ideal) x0 x1 (h.lift i q) = _
  rw [hl, stage14_apply]

/-- Stage 16 is the table of least distances from each point of y to the cloud x. -/
theorem stage16_eq (x0 x1 : (⟨S8x4096x3, .f32⟩ : BufTy).Contents (Elt Ideal)) :
    Cert.ReferenceIdeal.Read.val_main_v16 (F := Ideal) x0 x1 = Cert.Chamfer.nearY x1 x0 := by
  funext i
  have h : S8x4096x4096.Reduces [1] S8x4096 := by decide
  unfold val_main_v16
  refine (Host.reduce_eq_fold_single (FloatOps.minimumf (F := Ideal) (φ := .f32)) (val_main_v14 (F := Ideal) x0 x1)
    (val_main_cst_4 (F := Ideal)) reducesTo_S8x4096x4096_S8x4096_d1 h h_S_ i).trans ?_
  rw [val_main_cst_4_apply, Ideal.ofBits_def]
  unfold Cert.Chamfer.nearY
  show (Finset.univ : Finset (Fin 4096)).fold min Cert.Chamfer.pinf (val_main_v14 (F := Ideal) x0 x1 ∘ h.lift i) = _
  refine Finset.fold_congr fun p _ => ?_
  have hl : h.lift i p = ix3 (n0 := 8) (n1 := 4096) (n2 := 4096) (i 0) p (i 1) :=
    funext fun a => Fin.ext (by match a with | ⟨0, _⟩ => rfl | ⟨1, _⟩ => rfl | ⟨2, _⟩ => rfl)
  show val_main_v14 (F := Ideal) x0 x1 (h.lift i p) = _
  rw [hl, stage14_apply]

end Cert.ReferenceIdeal.RefNear

end
-- ==== Proof.RefLoss.lean ====
/-
  The reference program ends at the common loss term of the specification's two tables.

  Past its two minimum-reductions the reference multiplies the first table entrywise by the mask (read as an [8, 4096]
  table), sums each table from 0 over all its entries, divides each sum by 32768 and adds the two quotients: the loss of
  the specification at the two nearest-neighbour tables.
-/
import proofs.«128334_j2602750181383_1_alg».proof.Proof.RefNear
import proofs.«128334_j2602750181383_1_alg».proof.Proof.Loss
import proofs.«128334_j2602750181383_1_alg».proof.Proof.Gen.ReferenceIdeal.Read
import proofs.«128334_j2602750181383_1_alg».proof.Proof.Gen.ReferenceIdeal.Run

noncomputable section

namespace Cert.ReferenceIdeal.RefLoss

open Cert.ReferenceIdeal Cert.ReferenceIdeal.Gen Cert.ReferenceIdeal.Read Cert.ReferenceIdeal.RefNear Idealize.ShloMosaic
  Idealize.ShloMosaic.TcCoe Idealize.SL.Sem Idealize.ShloMosaic.StableHlo

/-- The reference's last stage is the loss of the two nearest-neighbour tables and the mask. -/
theorem result_eq (x0 x1 : (⟨S8x4096x3, .f32⟩ : BufTy).Contents (Elt Ideal))
    (x2 : (⟨S2x4x1x64x64, .f32⟩ : BufTy).Contents (Elt Ideal)) :
    Cert.ReferenceIdeal.Read.val_main_v23 (F := Ideal) x0 x1 x2
      = Cert.Chamfer.loss (F := Ideal) Cert.ReferenceIdeal.Gen.shapeCasts_S2x4x1x64x64_S8x4096 Cert.ReferenceIdeal.Gen.reducesTo_S8x4096_S_d0_1
          Cert.ReferenceIdeal.Gen.h_S_ (Cert.Chamfer.nearX x1 x0) (Cert.Chamfer.nearY x1 x0) x2 := by
  unfold val_main_v23 val_main_v20 val_main_v22 val_main_v19 val_main_v21 val_main_v18 val_main_v17 val_main_cst_5
    val_main_cst_6 val_main_cst_7 val_main_cst_8
  rw [stage15_eq, stage16_eq]
  rfl

/-- Every run of the reference ends with the loss of the two nearest-neighbour tables of its first two arguments and
    its third, the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v23) = Cert.Chamfer.loss (F := Ideal) shapeCasts_S2x4x1x64x64_S8x4096 reducesTo_S8x4096_S_d0_1 h_S_
          (Cert.Chamfer.nearX (m ((c.tc : Thread nD τ).loc main_arg1)) (m ((c.tc : Thread nD τ).loc main_arg0)))
          (Cert.Chamfer.nearY (m ((c.tc : Thread nD τ).loc main_arg1)) (m ((c.tc : Thread nD τ).loc main_arg0)))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run Cert.ReferenceIdeal.defs _ _).mono
    (fun _ h c => ⟨by rw [(h c).1, Read.val_main_v23_eq, result_eq], (h c).2⟩)
    (Cert.ReferenceIdeal.Value.run (F := Ideal) m ρ)

end Cert.ReferenceIdeal.RefLoss

end
-- ==== Proof.lean ====
/-
  The certificate of the tiled nearest-neighbour kernel against its whole-array reference.

  Both programs take two clouds of 4096 points of ℝ³ per batch entry and a mask, form for every pair of points the
  clamped squared distance `max (|x_p|² + |y_q|² − 2⟨x_p, y_q⟩) 0`, take its minimum over `q` for every `p` and over
  `p` for every `q`, and return the masked mean of the first table plus the mean of the second.  The reference does
  it on whole arrays.  The kernel sweeps a 16 × 16 grid of 256 × 256 tiles of point pairs and keeps two running
  minima, one per row tile and one for all columns; at the ideal instance a minimum of tile minima is the minimum over
  all points, because `min` on the extended reals is associative, commutative and idempotent and +∞ is its unit, so
  no precondition is used.  The word-level kernel's idealization rewrites nothing, so `preserves` is `True`.
-/
import proofs.«128334_j2602750181383_1_alg».proof.Defs
import proofs.«128334_j2602750181383_1_alg».proof.Proof.Gen.Kernel
import proofs.«128334_j2602750181383_1_alg».proof.Proof.Gen.Kernel.Skeleton
import proofs.«128334_j2602750181383_1_alg».proof.Proof.Gen.Kernel.Launch
import proofs.«128334_j2602750181383_1_alg».proof.Proof.Gen.Kernel.Points
import proofs.«128334_j2602750181383_1_alg».proof.Proof.Gen.Kernel.Frame
import proofs.«128334_j2602750181383_1_alg».proof.Proof.Gen.KernelIdeal
import proofs.«128334_j2602750181383_1_alg».proof.Proof.Gen.KernelIdeal.Skeleton
import proofs.«128334_j2602750181383_1_alg».proof.Proof.Gen.KernelIdeal.Launch
import proofs.«128334_j2602750181383_1_alg».proof.Proof.Gen.KernelIdeal.Points
import proofs.«128334_j2602750181383_1_alg».proof.Proof.Gen.KernelIdeal.Frame
import proofs.«128334_j2602750181383_1_alg».proof.Proof.Gen.ReferenceIdeal
import proofs.«128334_j2602750181383_1_alg».proof.Proof.Gen.Pre_finite_inputs
import proofs.«128334_j2602750181383_1_alg».proof.Proof.Gen.ReferenceIdeal.Run
import proofs.«128334_j2602750181383_1_alg».proof.Proof.Gen.ReferenceIdeal.Read
import proofs.«128334_j2602750181383_1_alg».proof.Proof.KernelRun
import proofs.«128334_j2602750181383_1_alg».proof.Proof.RefLoss
import Idealize.ShloMosaic.Adequacy
import Idealize.ShloMosaic.Init

noncomputable section

namespace Cert.Proof

open Idealize.ShloMosaic Idealize.SL.Sem

/-- The three programs run, fault-free, and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal instance both programs end at the loss term of `nearX` and `nearY` of the clouds and the mask. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefLoss.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
